-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_0)) (v3 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_0) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_v6) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x64 : Shape := ⟨2, ![800000, 64]⟩
abbrev S800000x2 : Shape := ⟨2, ![800000, 2]⟩
abbrev S800000x1 : Shape := ⟨2, ![800000, 1]⟩
abbrev S193x64 : Shape := ⟨2, ![193, 64]⟩
abbrev S64 : Shape := ⟨1, ![64]⟩
abbrev S128x64 : Shape := ⟨2, ![128, 64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S800000x2 : S_.BroadcastsInDim S800000x2 (![] : Fin 0 → Fin S800000x2.rank)
  reducesTo_S800000x2_S_d0_1 : S800000x2.ReducesTo [0, 1] S_
  bcast_S_S800000x1 : S_.BroadcastsInDim S800000x1 (![] : Fin 0 → Fin S800000x1.rank)
  reducesTo_S800000x1_S_d0_1 : S800000x1.ReducesTo [0, 1] S_
  bcast_S_S193x64 : S_.BroadcastsInDim S193x64 (![] : Fin 0 → Fin S193x64.rank)
  reducesTo_S193x64_S_d0_1 : S193x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part3 {F : FTy → Type} [FloatOps F] (main_arg1 : IVec S2x800000 32) (main_v48 : IVec S_ 1) (main_v50 : IVec S2x800000 1) : IVec S_ 1 :=
  let main_c_19 : IVec S_ 32 := constantI S_ 32 50000#32
  let main_v51 : IVec S2x800000 32 := broadcastInDim S2x800000 ![] bcast_S_S2x800000 main_c_19
  let main_v52 : IVec S2x800000 1 := cmpi .slt main_arg1 main_v51
  let main_v53 : IVec S2x800000 1 := andi main_v50 main_v52
  let main_c_20 : IVec S_ 1 := constantI S_ 1 1#1
  let main_v54 : IVec S_ 1 := (fun x v => Host.reduce IntOp.andi x v reducesTo_S2x800000_S_d0_1 h_S_) main_v53 main_c_20
  let main_v55 : IVec S_ 1 := andi main_v48 main_v54
  main_v55

def fn_part2 {F : FTy → Type} [FloatOps F] (main_arg1 : IVec S2x800000 32) (main_arg8 : FVec F S64 .f32) (main_arg9 : FVec F S64x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_c_18 : IVec S_ 32 := constantI S_ 32 4294917296#32
  let main_v49 : IVec S2x800000 32 := broadcastInDim S2x800000 ![] bcast_S_S2x800000 main_c_18
  let main_v50 : IVec S2x800000 1 := cmpi .sge main_arg1 main_v49
  fn_part3 (F := F) main_arg1 main_v48 main_v50

def fn_part1 {F : FTy → Type} [FloatOps F] (main_arg1 : IVec S2x800000 32) (main_arg5 : FVec F S193x64 .f32) (main_arg6 : FVec F S64 .f32) (main_arg7 : FVec F S128x64 .f32) (main_arg8 : FVec F S64 .f32) (main_arg9 : FVec F S64x64 .f32) (main_arg10 : FVec F S64 .f32) (main_v13 : IVec S_ 1) (main_v16 : IVec S800000x1 1) : IVec S_ 1 :=
  let main_c_5 : IVec S_ 1 := constantI S_ 1 1#1
  let main_v17 : IVec S_ 1 := (fun x v => Host.reduce IntOp.andi x v reducesTo_S800000x1_S_d0_1 h_S_) main_v16 main_c_5
  let main_v18 : IVec S_ 1 := andi main_v13 main_v17
  let main_v19 : FVec F S193x64 .f32 := Host.absf main_arg5
  let main_cst_6 : FVec F S_ .f32 := constant S_ .f32 0x7F800000#32
  let main_v20 : FVec F S193x64 .f32 := broadcastInDim S193x64 ![] bcast_S_S193x64 main_cst_6
  let main_v21 : IVec S193x64 1 := cmpf .olt main_v19 main_v20
  let main_c_7 : IVec S_ 1 := constantI S_ 1 1#1
  let main_v22 : IVec S_ 1 := (fun x v => Host.reduce IntOp.andi x v reducesTo_S193x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x64 .f32) (main_arg1 : IVec S2x800000 32) (main_arg2 : FVec F S800000x64 .f32) (main_arg3 : FVec F S800000x2 .f32) (main_arg4 : FVec F S800000x1 .f32) (main_arg5 : FVec F S193x64 .f32) (main_arg6 : FVec F S64 .f32) (main_arg7 : FVec F S128x64 .f32) (main_arg8 : FVec F S64 .f32) (main_arg9 : FVec F S64x64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S800000x2 .f32 := Host.absf main_arg3
  let main_cst_2 : FVec F S_ .f32 := constant S_ .f32 0x7F800000#32
  let main_v10 : FVec F S800000x2 .f32 := broadcastInDim S800000x2 ![] bcast_S_S800000x2 main_cst_2
  let main_v11 : IVec S800000x2 1 := cmpf .olt main_v9 main_v10
  let main_c_3 : IVec S_ 1 := constantI S_ 1 1#1
  let main_v12 : IVec S_ 1 := (fun x v => Host.reduce IntOp.andi x v reducesTo_S800000x2_S_d0_1 h_S_) main_v11 main_c_3
  let main_v13 : IVec S_ 1 := andi main_v8 main_v12
  let main_v14 : FVec F S800000x1 .f32 := Host.absf main_arg4
  let main_cst_4 : FVec F S_ .f32 := constant S_ .f32 0x7F800000#32
  let main_v15 : FVec F S800000x1 .f32 := broadcastInDim S800000x1 ![] bcast_S_S800000x1 main_cst_4
  let main_v16 : IVec S800000x1 1 := cmpf .olt main_v14 main_v15
  fn_part1 (F := F) main_arg1 main_arg5 main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S800000x64 : Shape := ⟨2, ![800000, 64]⟩
abbrev S800000x2 : Shape := ⟨2, ![800000, 2]⟩
abbrev S800000x1 : Shape := ⟨2, ![800000, 1]⟩
abbrev S193x64 : Shape := ⟨2, ![193, 64]⟩
abbrev S64 : Shape := ⟨1, ![64]⟩
abbrev S128x64 : Shape := ⟨2, ![128, 64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S1 : Shape := ⟨1, ![1]⟩
abbrev S1x1 : Shape := ⟨2, ![1, 1]⟩
abbrev S1x64 : Shape := ⟨2, ![1, 64]⟩
abbrev S6400x64 : Shape := ⟨2, ![6400, 64]⟩
abbrev S6400x1 : Shape := ⟨2, ![6400, 1]⟩
abbrev S50000x1 : Shape := ⟨2, ![50000, 1]⟩
abbrev S5000x64 : Shape := ⟨2, ![5000, 64]⟩
abbrev S5000x1 : Shape := ⟨2, ![5000, 1]⟩

abbrev nBuf : Space → Nat
  | .hbm => 90
  | .vmem => 30
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S800000x2, .f32⟩
  | .hbm, ⟨4, _⟩ => ⟨S800000x1, .f32⟩
  | .hbm, ⟨5, _⟩ => ⟨S193x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S1, .i32⟩
  | .hbm, ⟨24, _⟩ => ⟨S_, .i32⟩
  | .hbm, ⟨25, _⟩ => ⟨S800000x1, .i32⟩
  | .hbm, ⟨26, _⟩ => ⟨S800000x1, .i1⟩
  | .hbm, ⟨27, _⟩ => ⟨S1x1, .i32⟩
  | .hbm, ⟨28, _⟩ => ⟨S800000x1, .i32⟩
  | .hbm, ⟨29, _⟩ => ⟨S800000x1, .i1⟩
  | .hbm, ⟨30, _⟩ => ⟨S800000x1, .i1⟩
  | .hbm, ⟨31, _⟩ => ⟨S_, .i1⟩
  | .hbm, ⟨32, _⟩ => ⟨S800000, .i1⟩
  | .hbm, ⟨33, _⟩ => ⟨S800000x64, .f32⟩
  | .hbm, ⟨34, _⟩ => ⟨S800000x64, .i1⟩
  | .hbm, ⟨35, _⟩ => ⟨S_, .f32⟩
  | .hbm, ⟨36, _⟩ => ⟨S800000x64, .f32⟩
  | .hbm, ⟨37, _⟩ => ⟨S800000x64, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S1, .i32⟩
  | .hbm, ⟨47, _⟩ => ⟨S_, .i32⟩
  | .hbm, ⟨48, _⟩ => ⟨S800000x1, .i32⟩
  | .hbm, ⟨49, _⟩ => ⟨S800000x1, .i1⟩
  | .hbm, ⟨50, _⟩ => ⟨S1x1, .i32⟩
  | .hbm, ⟨51, _⟩ => ⟨S800000x1, .i32⟩
  | .hbm, ⟨52, _⟩ => ⟨S800000x1, .i1⟩
  | .hbm, ⟨53, _⟩ => ⟨S800000x1, .i1⟩
  | .hbm, ⟨54, _⟩ => ⟨S_, .i1⟩
  | .hbm, ⟨55, _⟩ => ⟨S800000, .i1⟩
  | .hbm, ⟨56, _⟩ => ⟨S800000x64, .f32⟩
  | .hbm, ⟨57, _⟩ => ⟨S800000x64, .i1⟩
  | .hbm, ⟨58, _⟩ => ⟨S_, .f32⟩
  | .hbm, ⟨59, _⟩ => ⟨S800000x64, .f32⟩
  | .hbm, ⟨60, _⟩ => ⟨S800000x64, .f32⟩
  | .hbm, ⟨61, _⟩ => ⟨S800000x2, .f32⟩
  | .hbm, ⟨62, _⟩ => ⟨S_, .f32⟩
  | .hbm, ⟨63, _⟩ => ⟨S800000, .f32⟩
  | .hbm, ⟨64, _⟩ => ⟨S800000x1, .f32⟩
  | .hbm, ⟨65, _⟩ => ⟨S800000x1, .f32⟩
  | .hbm, ⟨66, _⟩ => ⟨S800000x1, .f32⟩
  | .hbm, ⟨67, _⟩ => ⟨S800000x1, .f32⟩
  | .hbm, ⟨68, _⟩ => ⟨S64x64, .f32⟩
  | .hbm, ⟨69, _⟩ => ⟨S64x64, .f32⟩
  | .hbm, ⟨70, _⟩ => ⟨S1x64, .f32⟩
  | .hbm, ⟨71, _⟩ => ⟨S64x64, .f32⟩
  | .hbm, ⟨72, _⟩ => ⟨S1x64, .f32⟩
  | .hbm, ⟨73, _⟩ => ⟨S1x64, .f32⟩
  | .hbm, ⟨74, _⟩ => ⟨S1x64, .f32⟩
  | .hbm, ⟨75, _⟩ => ⟨S64x64, .f32⟩
  | .hbm, ⟨76, _⟩ => ⟨S64x64, .f32⟩
  | .hbm, ⟨77, _⟩ => ⟨S800000x64, .f32⟩
  | .hbm, ⟨78, _⟩ => ⟨S800000x64, .f32⟩
  | .hbm, ⟨79, _⟩ => ⟨S_, .f32⟩
  | .hbm, ⟨80, _⟩ => ⟨S800000x1, .f32⟩
  | .hbm, ⟨81, _⟩ => ⟨S_, .f32⟩
  | .hbm, ⟨82, _⟩ => ⟨S50000x1, .f32⟩
  | .hbm, ⟨83, _⟩ => ⟨S800000x1, .i32⟩
  | .hbm, ⟨84, _⟩ => ⟨S50000x1, .f32⟩
  | .hbm, ⟨85, _⟩ => ⟨S_, .f32⟩
  | .hbm, ⟨86, _⟩ => ⟨S50000x64, .f32⟩
  | .hbm, ⟨87, _⟩ => ⟨S800000x1, .i32⟩
  | .hbm, ⟨88, _⟩ => ⟨S50000x64, .f32⟩
  | .hbm, ⟨89, _⟩ => ⟨S50000x64, .f32⟩
  | .local _ .vmem, ⟨0, _⟩ => ⟨S6400x64, .f32⟩
  | .local _ .vmem, ⟨1, _⟩ => ⟨S6400x64, .f32⟩
  | .local _ .vmem, ⟨2, _⟩ => ⟨S6400x64, .f32⟩
  | .local _ .vmem, ⟨3, _⟩ => ⟨S6400x64, .f32⟩
  | .local _ .vmem, ⟨4, _⟩ => ⟨S6400x64, .f32⟩
  | .local _ .vmem, ⟨5, _⟩ => ⟨S6400x64, .f32⟩
  | .local _ .vmem, ⟨6, _⟩ => ⟨S6400x1, .f32⟩
  | .local _ .vmem, ⟨7, _⟩ => ⟨S6400x1, .f32⟩
  | .local _ .vmem, ⟨8, _⟩ => ⟨S64x64, .f32⟩
  | .local _ .vmem, ⟨9, _⟩ => ⟨S64x64, .f32⟩
  | .local _ .vmem, ⟨10, _⟩ => ⟨S1x64, .f32⟩
  | .local _ .vmem, ⟨11, _⟩ => ⟨S64x64, .f32⟩
  | .local _ .vmem, ⟨12, _⟩ => ⟨S1x64, .f32⟩
  | .local _ .vmem, ⟨13, _⟩ => ⟨S64x64, .f32⟩
  | .local _ .vmem, ⟨14, _⟩ => ⟨S1x64, .f32⟩
  | .local _ .vmem, ⟨15, _⟩ => ⟨S6400x64, .f32⟩
  | .local _ .vmem, ⟨16, _⟩ => ⟨S6400x64, .f32⟩
  | .local _ .vmem, ⟨17, _⟩ => ⟨S6400x64, .f32⟩
  | .local _ .vmem, ⟨18, _⟩ => ⟨S6400x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S64x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v5 : Ref sig .tc := ⟨.hbm, 60, rfl⟩
abbrev main_v6 : Ref sig .tc := ⟨.hbm, 61, rfl⟩
abbrev main_cst : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21_0 : Ref sig .tc := ⟨.hbm, 77, rfl⟩
abbrev main_v21_1 : Ref sig .tc := ⟨.hbm, 78, rfl⟩
abbrev main_cst_0 : Ref sig .tc := ⟨.hbm, 79, rfl⟩
abbrev main_v22 : Ref sig .tc := ⟨.hbm, 80, rfl⟩
abbrev main_cst_1 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_cst_2 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem6_1 : DmaSem sig := 29

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6400x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S6400x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S6400x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  reducesTo_S800000x2_S800000_d1 : S800000x2.ReducesTo [1] S800000
  slices_S193x64_S64x64_0_0 : S193x64.Slices ![0, 0] S64x64
  slices_S193x64_S64x64_64_0 : S193x64.Slices ![64, 0] S64x64
  slices_S193x64_S1x64_128_0 : S193x64.Slices ![128, 0] S1x64
  slices_S193x64_S64x64_129_0 : S193x64.Slices ![129, 0] S64x64
  shapeCasts_S64_S1x64 : S64.ShapeCasts S1x64
  slices_S128x64_S64x64_0_0 : S128x64.Slices ![0, 0] S64x64
  slices_S128x64_S64x64_64_0 : S128x64.Slices ![64, 0] S64x64
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S6400x1_S6400x64 : S6400x1.Broadcasts S6400x64
  broadcasts_S1x64_S6400x64 : S1x64.Broadcasts S6400x64
  bcast_S_S50000x1 : S_.BroadcastsInDim S50000x1 (![] : Fin 0 → Fin S50000x1.rank)
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  dot_S6400x64_S64x64_S6400x64_1_0_0_1_n_n_wf : DotDims.WF S6400x64 S64x64 S6400x64 [1] [0] [0] [1] [] []
  scatter_S50000x1_S800000x1_S800000x1_1_0_0_1_wf : ScatterDims.WF S50000x1 S800000x1 S800000x1 [1] [0] [0] 1
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S800000x64.size a
  hwx0_0 : ∀ i : grid0.Coords, EltTy.bits .f32 = 32 ∨ (Rect.block (s := S800000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S800000x64.size a
  hwx0_1 : ∀ i : grid0.Coords, EltTy.bits .f32 = 32 ∨ (Rect.block (s := S800000x64) S6400x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x64.size a ≤ S800000x64.size a
  hwx0_2 : ∀ i : grid0.Coords, EltTy.bits .f32 = 32 ∨ (Rect.block (s := S800000x64) S6400x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6400x1.size a ≤ S800000x1.size a
  hwx0_3 : ∀ i : grid0.Coords, EltTy.bits .f32 = 32 ∨ (Rect.block (s := S800000x1) S6400x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S6400x64.size a ≤ S800000x64.size a
  hwx0_11 : ∀ i : grid0.Coords, EltTy.bits .f32 = 32 ∨ (Rect.block (s := S800000x64) S6400x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S6400x64.size a ≤ S800000x64.size a
  hwx0_12 : ∀ i : grid0.Coords, EltTy.bits .f32 = 32 ∨ (Rect.block (s := S800000x64) S6400x64.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v4) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6400x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S6400x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21_0) S6400x64.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v21_1) S6400x64.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x64 : Shape := ⟨2, ![800000, 64]⟩
abbrev S800000x2 : Shape := ⟨2, ![800000, 2]⟩
abbrev S800000x1 : Shape := ⟨2, ![800000, 1]⟩
abbrev S193x64 : Shape := ⟨2, ![193, 64]⟩
abbrev S64 : Shape := ⟨1, ![64]⟩
abbrev S128x64 : Shape := ⟨2, ![128, 64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x193 : Shape := ⟨2, ![800000, 193]⟩
abbrev S1x64 : Shape := ⟨2, ![1, 64]⟩
abbrev S50000x1 : Shape := ⟨2, ![50000, 1]⟩
abbrev S50000x128 : Shape := ⟨2, ![50000, 128]⟩

abbrev nBuf : Space → Nat
  | .hbm => 83
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S800000x2, .f32⟩
  | .hbm, ⟨4, _⟩ => ⟨S800000x1, .f32⟩
  | .hbm, ⟨5, _⟩ => ⟨S193x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S800000x2, .f32⟩
  | .hbm, ⟨16, _⟩ => ⟨S_, .f32⟩
  | .hbm, ⟨17, _⟩ => ⟨S800000, .f32⟩
  | .hbm, ⟨18, _⟩ => ⟨S800000x1, .f32⟩
  | .hbm, ⟨19, _⟩ => ⟨S800000x1, .f32⟩
  | .hbm, ⟨20, _⟩ => ⟨S800000x1, .f32⟩
  | .hbm, ⟨21, _⟩ => ⟨S800000x1, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x64, .f32⟩
  | .hbm, ⟨40, _⟩ => ⟨S800000x193, .f32⟩
  | .hbm, ⟨41, _⟩ => ⟨S800000x64, .f32⟩
  | .hbm, ⟨42, _⟩ => ⟨S1x64, .f32⟩
  | .hbm, ⟨43, _⟩ => ⟨S800000x64, .f32⟩
  | .hbm, ⟨44, _⟩ => ⟨S800000x64, .f32⟩
  | .hbm, ⟨45, _⟩ => ⟨S_, .f32⟩
  | .hbm, ⟨46, _⟩ => ⟨S800000x64, .f32⟩
  | .hbm, ⟨47, _⟩ => ⟨S800000x64, .f32⟩
  | .hbm, ⟨48, _⟩ => ⟨S800000x64, .f32⟩
  | .hbm, ⟨49, _⟩ => ⟨S800000x64, .f32⟩
  | .hbm, ⟨50, _⟩ => ⟨S800000x64, .i1⟩
  | .hbm, ⟨51, _⟩ => ⟨S800000x64, .f32⟩
  | .hbm, ⟨52, _⟩ => ⟨S800000x64, .f32⟩
  | .hbm, ⟨53, _⟩ => ⟨S800000x64, .f32⟩
  | .hbm, ⟨54, _⟩ => ⟨S800000x64, .f32⟩
  | .hbm, ⟨55, _⟩ => ⟨S800000x64, .f32⟩
  | .hbm, ⟨56, _⟩ => ⟨S800000x64, .f32⟩
  | .hbm, ⟨57, _⟩ => ⟨S800000x64, .f32⟩
  | .hbm, ⟨58, _⟩ => ⟨S800000x64, .f32⟩
  | .hbm, ⟨59, _⟩ => ⟨S_, .f32⟩
  | .hbm, ⟨60, _⟩ => ⟨S50000x64, .f32⟩
  | .hbm, ⟨61, _⟩ => ⟨S800000x1, .i32⟩
  | .hbm, ⟨62, _⟩ => ⟨S50000x64, .f32⟩
  | .hbm, ⟨63, _⟩ => ⟨S_, .f32⟩
  | .hbm, ⟨64, _⟩ => ⟨S800000x1, .f32⟩
  | .hbm, ⟨65, _⟩ => ⟨S_, .f32⟩
  | .hbm, ⟨66, _⟩ => ⟨S50000x1, .f32⟩
  | .hbm, ⟨67, _⟩ => ⟨S800000x1, .i32⟩
  | .hbm, ⟨68, _⟩ => ⟨S50000x1, .f32⟩
  | .hbm, ⟨69, _⟩ => ⟨S_, .f32⟩
  | .hbm, ⟨70, _⟩ => ⟨S50000x1, .f32⟩
  | .hbm, ⟨71, _⟩ => ⟨S50000x1, .f32⟩
  | .hbm, ⟨72, _⟩ => ⟨S50000x64, .f32⟩
  | .hbm, ⟨73, _⟩ => ⟨S50000x64, .f32⟩
  | .hbm, ⟨74, _⟩ => ⟨S50000x128, .f32⟩
  | .hbm, ⟨75, _⟩ => ⟨S50000x64, .f32⟩
  | .hbm, ⟨76, _⟩ => ⟨S1x64, .f32⟩
  | .hbm, ⟨77, _⟩ => ⟨S50000x64, .f32⟩
  | .hbm, ⟨78, _⟩ => ⟨S50000x64, .f32⟩
  | .hbm, ⟨79, _⟩ => ⟨S800000x64, .f32⟩
  | .hbm, ⟨80, _⟩ => ⟨S1x64, .f32⟩
  | .hbm, ⟨81, _⟩ => ⟨S800000x64, .f32⟩
  | .hbm, ⟨82, _⟩ => ⟨S800000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_call0_v2 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call1_cst : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_v26 : Ref sig .tc := ⟨.hbm, 58, rfl⟩
abbrev main_cst : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst_3 : Ref sig .tc := ⟨.hbm, 63, rfl⟩
abbrev main_v30 : Ref sig .tc := ⟨.hbm, 64, rfl⟩
abbrev main_cst_4 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_5 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  reducesTo_S800000x2_S800000_d1 : S800000x2.ReducesTo [1] S800000
  h_S_ : 0 < S_.numel
  bcast_S800000_S800000x1_0 : S800000.BroadcastsInDim S800000x1 (![0] : Fin 1 → Fin S800000x1.rank)
  bcast_S_S800000 : S_.BroadcastsInDim S800000 (![] : Fin 0 → Fin S800000.rank)
  concatenates_S800000x64_S800000x64_S800000x1_S800000x64_S800000x193_d1 : Shape.Concatenates [S800000x64, S800000x64, S800000x1, S800000x64] S800000x193 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x193_S193x64_S800000x64_1_0_0_1_n_n_wf : DotDims.WF S800000x193 S193x64 S800000x64 [1] [0] [0] [1] [] []
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  dot_S50000x128_S128x64_S50000x64_1_0_0_1_n_n_wf : DotDims.WF S50000x128 S128x64 S50000x64 [1] [0] [0] [1] [] []
  dot_S800000x64_S64x64_S800000x64_1_0_0_1_n_n_wf : DotDims.WF S800000x64 S64x64 S800000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x193_S193x64_S800000x64_1_0_0_1_n_n : DotDims S800000x193 S193x64 S800000x64 where
  lhsContracting := [1]
  rhsContracting := [0]
  lhsNonContracting := [0]
  rhsNonContracting := [1]
  lhsBatch := []
  rhsBatch := []
  wf := dot_S800000x193_S193x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf

class Facts : Prop extends Facts₀ where

variable [Facts]
-- ==== Proof.Spec.lean ====
/-
  One step of mean-aggregating message passing on a graph, as functions of whole arrays over the extended reals.

  For an edge e with gathered endpoint features xj[e,·], xi[e,·], a scalar strain st[e,0] and edge features ea[e,·],
  the pre-activation is the 193-term inner product of the concatenated feature row with the message weights, written
  here already split by segment:
      proj[e,j] = Σ_k xj[e,k]·wj[k,j] + Σ_k xi[e,k]·wi[k,j] + st[e,0]·ws[0,j] + Σ_k ea[e,k]·we[k,j] + bm[0,j],
  the message is softplus(proj), the edge update is msg·wd + bd, and the node update is
      x·wx + (agg / max(cnt, 1))·wa + bu.
  A sum over 193 = 64 + 64 + 1 + 64 (or 128 = 64 + 64) consecutive indices is the sum of its consecutive stretches;
  on the extended reals addition is a commutative monoid, so this needs no finiteness.
  softplus is written as jnp does, max p 0 + log1p (exp (-|p|)); its NaN branch never fires on the extended reals.
-/
import Idealize.ShloMosaic.PureOps.Ideal.Laws
import Idealize.ShloMosaic.Lib.ValueIdx
import Idealize.ShloMosaic.Lib.Pipeline.Value
import Idealize.ShloMosaic.Lib.ValueLayout

noncomputable section

namespace Cert.MsgPass

open Idealize.ShloMosaic Idealize.ShloMosaic.ValueIdx
open scoped BigOperators

/-- An a×b matrix of extended reals, indexed by the rank-2 index of its literal shape. -/
abbrev Mat (a b : ℕ) := (⟨2, ![a, b]⟩ : Shape).Idx → EReal

/-- log (1 + eᵖ) in the numerically stable spelling: max p 0 + log1p (e^(-|p|)). -/
def softplusAt (p : EReal) : EReal := max p 0 + Ideal.log1p (Ideal.exp (-(max p (-p))))

/-- The message pre-activation of edge e, output feature j: the four segments of the inner product, then the bias. -/
def projAt {R : ℕ} (xj xi ea : Mat R 64) (st : Mat R 1) (wj wi we : Mat 64 64) (ws bm : Mat 1 64) (e : Fin R) (j : Fin 64) : EReal :=
  (∑ k : Fin 64, xj (ix2 e k) * wj (ix2 k j)) + (∑ k : Fin 64, xi (ix2 e k) * wi (ix2 k j)) + st (ix2 e 0) * ws (ix2 0 j)
    + (∑ k : Fin 64, ea (ix2 e k) * we (ix2 k j)) + bm (ix2 0 j)

/-- The message of edge e, feature j. -/
def msgAt {R : ℕ} (xj xi ea : Mat R 64) (st : Mat R 1) (wj wi we : Mat 64 64) (ws bm : Mat 1 64) (e : Fin R) (j : Fin 64) : EReal :=
  softplusAt (projAt xj xi ea st wj wi we ws bm e j)

/-- The updated edge feature: a row of messages times the edge weights, plus the bias. -/
def edgeAt {R : ℕ} (msg : Mat R 64) (wd : Mat 64 64) (bd : Mat 1 64) (e : Fin R) (j : Fin 64) : EReal :=
  (∑ k : Fin 64, msg (ix2 e k) * wd (ix2 k j)) + bd (ix2 0 j)

/-- The updated node feature: the node's own row times wx, its mean incoming message times wa, plus the bias.
    The mean divides the summed messages by max(count, 1); the literal 1 is kept as its word. -/
def nodeAt {R : ℕ} (x agg : Mat R 64) (cnt : Mat R 1) (wx wa : Mat 64 64) (bu : Mat 1 64) (n : Fin R) (j : Fin 64) : EReal :=
  (∑ k : Fin 64, x (ix2 n k) * wx (ix2 k j))
    + (∑ k : Fin 64, Ideal.div (agg (ix2 n k)) (max (cnt (ix2 n 0)) (Ideal.ofBits .f32 0x3F800000#32)) * wa (ix2 k j))
    + bu (ix2 0 j)

/-- The three results as whole arrays. -/
def msgArr {R : ℕ} (xj xi ea : Mat R 64) (st : Mat R 1) (wj wi we : Mat 64 64) (ws bm : Mat 1 64) : Mat R 64 :=
  fun i => msgAt xj xi ea st wj wi we ws bm (i 0) (i 1)
def edgeArr {R : ℕ} (msg : Mat R 64) (wd : Mat 64 64) (bd : Mat 1 64) : Mat R 64 := fun i => edgeAt msg wd bd (i 0) (i 1)
def nodeArr {R : ℕ} (x agg : Mat R 64) (cnt : Mat R 1) (wx wa : Mat 64 64) (bu : Mat 1 64) : Mat R 64 :=
  fun i => nodeAt x agg cnt wx wa bu (i 0) (i 1)

/-! ## Each entry depends on one row of the edge (node) arrays

  A block of consecutive rows therefore computes the same entries as the whole array: the lemmas below replace a row
  of one family of arrays by an equal row of another. -/

theorem msgAt_congr {R R' : ℕ} {xj xi ea : Mat R 64} {st : Mat R 1} {xj' xi' ea' : Mat R' 64} {st' : Mat R' 1}
    {wj wi we wj' wi' we' : Mat 64 64} {ws bm ws' bm' : Mat 1 64} {e : Fin R} {e' : Fin R'} (j : Fin 64)
    (hxj : ∀ k : Fin 64, xj (ix2 e k) = xj' (ix2 e' k)) (hxi : ∀ k : Fin 64, xi (ix2 e k) = xi' (ix2 e' k))
    (hea : ∀ k : Fin 64, ea (ix2 e k) = ea' (ix2 e' k)) (hst : st (ix2 e 0) = st' (ix2 e' 0))
    (hwj : wj = wj') (hwi : wi = wi') (hwe : we = we') (hws : ws = ws') (hbm : bm = bm') :
    msgAt xj xi ea st wj wi we ws bm e j = msgAt xj' xi' ea' st' wj' wi' we' ws' bm' e' j := by
  subst hwj hwi hwe hws hbm
  simp only [msgAt, projAt, hxj, hxi, hea, hst]

theorem edgeAt_congr {R R' : ℕ} {msg : Mat R 64} {msg' : Mat R' 64} {wd wd' : Mat 64 64} {bd bd' : Mat 1 64}
    {e : Fin R} {e' : Fin R'} (j : Fin 64) (hm : ∀ k : Fin 64, msg (ix2 e k) = msg' (ix2 e' k)) (hwd : wd = wd') (hbd : bd = bd') :
    edgeAt msg wd bd e j = edgeAt msg' wd' bd' e' j := by
  subst hwd hbd
  simp only [edgeAt, hm]

theorem nodeAt_congr {R R' : ℕ} {x agg : Mat R 64} {cnt : Mat R 1} {x' agg' : Mat R' 64} {cnt' : Mat R' 1}
    {wx wa wx' wa' : Mat 64 64} {bu bu' : Mat 1 64} {n : Fin R} {n' : Fin R'} (j : Fin 64)
    (hx : ∀ k : Fin 64, x (ix2 n k) = x' (ix2 n' k)) (hagg : ∀ k : Fin 64, agg (ix2 n k) = agg' (ix2 n' k))
    (hcnt : cnt (ix2 n 0) = cnt' (ix2 n' 0)) (hwx : wx = wx') (hwa : wa = wa') (hbu : bu = bu') :
    nodeAt x agg cnt wx wa bu n j = nodeAt x' agg' cnt' wx' wa' bu' n' j := by
  subst hwx hwa hbu
  simp only [nodeAt, hx, hagg, hcnt]

/-! ## Rows of a weight matrix, and a bias vector as a row -/

/-- Rows o … o + 63 of an n×64 matrix. -/
def rows64 {n : ℕ} (W : Mat n 64) (o : ℕ) (h : o + 64 ≤ n) : Mat 64 64 := fun i => W (ix2 ⟨o + (i 0).val, by have h64 : (i 0).val < 64 := (i 0).isLt; omega⟩ (i 1))

/-- Row o of an n×64 matrix, as a 1×64 matrix. -/
def row1 {n : ℕ} (W : Mat n 64) (o : ℕ) (h : o < n) : Mat 1 64 := fun i => W (ix2 ⟨o, h⟩ (i 1))

/-- A length-64 vector as a 1×64 matrix. -/
def asRow (b : (⟨1, ![64]⟩ : Shape).Idx → EReal) : Mat 1 64 := fun i => b (ix1 (i 1))

/-- A 64-row cut of a matrix along its rows is its row block. -/
theorem slice_rows64 {n : ℕ} (W : Mat n 64) (o : ℕ) (h : (⟨2, ![n, 64]⟩ : Shape).Slices ![o, 0] ⟨2, ![64, 64]⟩) (hb : o + 64 ≤ n) :
    extractStridedSlice ⟨2, ![64, 64]⟩ ![o, 0] W h = rows64 W o hb := by
  funext i
  rw [eq_ix2 i]
  exact slice2_axis0_apply o W h (i 0) (i 1) _ rfl

/-- A one-row cut is that row. -/
theorem slice_row1 {n : ℕ} (W : Mat n 64) (o : ℕ) (h : (⟨2, ![n, 64]⟩ : Shape).Slices ![o, 0] ⟨2, ![1, 64]⟩) (hb : o < n) :
    extractStridedSlice ⟨2, ![1, 64]⟩ ![o, 0] W h = row1 W o hb := by
  funext i
  rw [eq_ix2 i]
  exact slice2_axis0_apply o W h (i 0) (i 1) ⟨o, hb⟩ (by have h0 : (i 0).val < 1 := (i 0).isLt; show o = o + (i 0).val; omega)

/-- A vector reshaped to one row is that row. -/
theorem cast_asRow (b : (⟨1, ![64]⟩ : Shape).Idx → EReal) (h : (⟨1, ![64]⟩ : Shape).ShapeCasts ⟨2, ![1, 64]⟩) :
    shapeCast ⟨2, ![1, 64]⟩ b h = asRow b := by
  funext i
  rw [eq_ix2 i]
  exact shapeCast_a_1a_apply b h (i 0) (i 1)

/-! ## A row of a concatenation along the feature axis, read by segment -/

section Cat
variable {R : ℕ}

/-- Columns 0 … 63 of [A | B | C | D] (widths 64, 64, 1, 64) are A's. -/
theorem cat4_seg0 (A B D : Mat R 64) (C : Mat R 1)
    (h : Shape.Concatenates [⟨2, ![R, 64]⟩, ⟨2, ![R, 64]⟩, ⟨2, ![R, 1]⟩, ⟨2, ![R, 64]⟩] ⟨2, ![R, 193]⟩ 1)
    (e : Fin R) (k : Fin 64) :
    concatenate ⟨2, ![R, 193]⟩ 1 [⟨⟨2, ![R, 64]⟩, A⟩, ⟨⟨2, ![R, 64]⟩, B⟩, ⟨⟨2, ![R, 1]⟩, C⟩, ⟨⟨2, ![R, 64]⟩, D⟩] h (ix2 e ⟨k.val, by omega⟩) = A (ix2 e k) :=
  concatenate_apply_piece 1 [⟨⟨2, ![R, 64]⟩, A⟩, ⟨⟨2, ![R, 64]⟩, B⟩, ⟨⟨2, ![R, 1]⟩, C⟩, ⟨⟨2, ![R, 64]⟩, D⟩] h _ 0 (by simp) _ A rfl rfl 0 rfl (ix2 e k)
    (fun b hb => by match b with | ⟨0, _⟩ => rfl | ⟨1, _⟩ => exact absurd rfl hb) (by show 0 + k.val = k.val; omega)

/-- Columns 64 … 127 are B's. -/
theorem cat4_seg1 (A B D : Mat R 64) (C : Mat R 1)
    (h : Shape.Concatenates [⟨2, ![R, 64]⟩, ⟨2, ![R, 64]⟩, ⟨2, ![R, 1]⟩, ⟨2, ![R, 64]⟩] ⟨2, ![R, 193]⟩ 1)
    (e : Fin R) (k : Fin 64) :
    concatenate ⟨2, ![R, 193]⟩ 1 [⟨⟨2, ![R, 64]⟩, A⟩, ⟨⟨2, ![R, 64]⟩, B⟩, ⟨⟨2, ![R, 1]⟩, C⟩, ⟨⟨2, ![R, 64]⟩, D⟩] h (ix2 e ⟨64 + k.val, by omega⟩) = B (ix2 e k) :=
  concatenate_apply_piece 1 [⟨⟨2, ![R, 64]⟩, A⟩, ⟨⟨2, ![R, 64]⟩, B⟩, ⟨⟨2, ![R, 1]⟩, C⟩, ⟨⟨2, ![R, 64]⟩, D⟩] h _ 1 (by simp) _ B rfl rfl 64 rfl (ix2 e k)
    (fun b hb => by match b with | ⟨0, _⟩ => rfl | ⟨1, _⟩ => exact absurd rfl hb) rfl

/-- Column 128 is C's only column. -/
theorem cat4_seg2 (A B D : Mat R 64) (C : Mat R 1)
    (h : Shape.Concatenates [⟨2, ![R, 64]⟩, ⟨2, ![R, 64]⟩, ⟨2, ![R, 1]⟩, ⟨2, ![R, 64]⟩] ⟨2, ![R, 193]⟩ 1)
    (e : Fin R) :
    concatenate ⟨2, ![R, 193]⟩ 1 [⟨⟨2, ![R, 64]⟩, A⟩, ⟨⟨2, ![R, 64]⟩, B⟩, ⟨⟨2, ![R, 1]⟩, C⟩, ⟨⟨2, ![R, 64]⟩, D⟩] h (ix2 e ⟨128, by omega⟩) = C (ix2 e 0) :=
  concatenate_apply_piece 1 [⟨⟨2, ![R, 64]⟩, A⟩, ⟨⟨2, ![R, 64]⟩, B⟩, ⟨⟨2, ![R, 1]⟩, C⟩, ⟨⟨2, ![R, 64]⟩, D⟩] h _ 2 (by simp) _ C rfl rfl 128 rfl (ix2 e 0)
    (fun b hb => by match b with | ⟨0, _⟩ => rfl | ⟨1, _⟩ => exact absurd rfl hb) rfl

/-- Columns 129 … 192 are D's. -/
theorem cat4_seg3 (A B D : Mat R 64) (C : Mat R 1)
    (h : Shape.Concatenates [⟨2, ![R, 64]⟩, ⟨2, ![R, 64]⟩, ⟨2, ![R, 1]⟩, ⟨2, ![R, 64]⟩] ⟨2, ![R, 193]⟩ 1)
    (e : Fin R) (k : Fin 64) :
    concatenate ⟨2, ![R, 193]⟩ 1 [⟨⟨2, ![R, 64]⟩, A⟩, ⟨⟨2, ![R, 64]⟩, B⟩, ⟨⟨2, ![R, 1]⟩, C⟩, ⟨⟨2, ![R, 64]⟩, D⟩] h (ix2 e ⟨129 + k.val, by omega⟩) = D (ix2 e k) :=
  concatenate_apply_piece 1 [⟨⟨2, ![R, 64]⟩, A⟩, ⟨⟨2, ![R, 64]⟩, B⟩, ⟨⟨2, ![R, 1]⟩, C⟩, ⟨⟨2, ![R, 64]⟩, D⟩] h _ 3 (by simp) _ D rfl rfl 129 rfl (ix2 e k)
    (fun b hb => by match b with | ⟨0, _⟩ => rfl | ⟨1, _⟩ => exact absurd rfl hb) rfl

/-- Columns 0 … 63 of [A | B] (widths 64, 64) are A's. -/
theorem cat2_seg0 (A B : Mat R 64)
    (h : Shape.Concatenates [⟨2, ![R, 64]⟩, ⟨2, ![R, 64]⟩] ⟨2, ![R, 128]⟩ 1)
    (e : Fin R) (k : Fin 64) :
    concatenate ⟨2, ![R, 128]⟩ 1 [⟨⟨2, ![R, 64]⟩, A⟩, ⟨⟨2, ![R, 64]⟩, B⟩] h (ix2 e ⟨k.val, by omega⟩) = A (ix2 e k) :=
  concatenate_apply_piece 1 [⟨⟨2, ![R, 64]⟩, A⟩, ⟨⟨2, ![R, 64]⟩, B⟩] h _ 0 (by simp) _ A rfl rfl 0 rfl (ix2 e k)
    (fun b hb => by match b with | ⟨0, _⟩ => rfl | ⟨1, _⟩ => exact absurd rfl hb) (by show 0 + k.val = k.val; omega)

/-- Columns 64 … 127 are B's. -/
theorem cat2_seg1 (A B : Mat R 64)
    (h : Shape.Concatenates [⟨2, ![R, 64]⟩, ⟨2, ![R, 64]⟩] ⟨2, ![R, 128]⟩ 1)
    (e : Fin R) (k : Fin 64) :
    concatenate ⟨2, ![R, 128]⟩ 1 [⟨⟨2, ![R, 64]⟩, A⟩, ⟨⟨2, ![R, 64]⟩, B⟩] h (ix2 e ⟨64 + k.val, by omega⟩) = B (ix2 e k) :=
  concatenate_apply_piece 1 [⟨⟨2, ![R, 64]⟩, A⟩, ⟨⟨2, ![R, 64]⟩, B⟩] h _ 1 (by simp) _ B rfl rfl 64 rfl (ix2 e k)
    (fun b hb => by match b with | ⟨0, _⟩ => rfl | ⟨1, _⟩ => exact absurd rfl hb) rfl

end Cat

/-! ## softplus, as each program spells it -/

/-- No extended real differs from itself, so a NaN test answers 0 (the ordered and the unordered "not equal" are one
    comparison here). -/
theorem cmp_ne_self (p : CmpFPredicate) (hp : p = .one ∨ p = .une) (d : EReal) : Ideal.cmp p d d = 0#1 := by
  rcases hp with rfl | rfl <;> simp [Ideal.cmp]

theorem ereal_sub_zero (p : EReal) : p - 0 = p := by rw [sub_eq_add_neg, neg_zero, add_zero]
theorem ereal_zero_sub (p : EReal) : 0 - p = -p := by rw [sub_eq_add_neg, zero_add]

/-- The selecting spelling with the negation written as 0 - |d|. -/
theorem softplus_sub_form (p : EReal) :
    Scalar.select (Ideal.cmp .one (p - 0) (p - 0)) (p + 0) (max p 0 + Ideal.log1p (Ideal.exp (0 - max (p - 0) (-(p - 0))))) = softplusAt p := by
  rw [cmp_ne_self _ (Or.inl rfl), select_zero, ereal_sub_zero, ereal_zero_sub]; rfl

/-- The selecting spelling with the negation written as -|d|. -/
theorem softplus_neg_form (p : EReal) :
    Scalar.select (Ideal.cmp .une (p - 0) (p - 0)) (p + 0) (max p 0 + Ideal.log1p (Ideal.exp (-(max (p - 0) (-(p - 0)))))) = softplusAt p := by
  rw [cmp_ne_self _ (Or.inr rfl), select_zero, ereal_sub_zero]; rfl

/-! ## A sum over consecutive stretches -/

/-- 128 = 64 + 64. -/
theorem sum128_split {M : Type*} [AddCommMonoid M] (f : Fin 128 → M) :
    ∑ q : Fin 128, f q = (∑ k : Fin 64, f ⟨k.val, by omega⟩) + ∑ k : Fin 64, f ⟨64 + k.val, by omega⟩ := by
  rw [Fin.sum_univ_add (a := 64) (b := 64) f]
  rfl

/-- 193 = 64 + 64 + 1 + 64. -/
theorem sum193_split {M : Type*} [AddCommMonoid M] (f : Fin 193 → M) :
    ∑ q : Fin 193, f q = (∑ k : Fin 64, f ⟨k.val, by omega⟩) + (∑ k : Fin 64, f ⟨64 + k.val, by omega⟩) + f ⟨128, by omega⟩
      + ∑ k : Fin 64, f ⟨129 + k.val, by omega⟩ := by
  rw [Fin.sum_univ_add (a := 129) (b := 64) f, Fin.sum_univ_add (a := 128) (b := 1) (fun i => f (Fin.castAdd 64 i)),
    Fin.sum_univ_add (a := 64) (b := 64) (fun i => f (Fin.castAdd 64 (Fin.castAdd 1 i))), Fin.sum_univ_one]
  rfl

end Cert.MsgPass

end
-- ==== Proof.LibMatmulPlain.lean ====
/-
  A plain matrix product on the extended reals, read at an entry.

  The dimension record of an M×K by K×N product (contract the left operand's axis 1 with the right operand's
  axis 0, no batch axis) is, whatever its well-formedness proof, the library's `DotDims.plain M K N`. At the ideal
  instance such a product into a zero accumulator is, at entry (i, j), the finite sum over q of l[i, q] · r[q, j]; with
  the right operand given as the transpose of an N×K matrix w, the sum over q of l[i, q] · w[j, q].
  The contraction index of the record is re-indexed to `Fin K` through the library's one-axis equivalence, and each
  operand index is identified coordinate by coordinate.
-/
import Idealize.ShloMosaic.PureOps.Ideal.Laws
import Idealize.ShloMosaic.Lib.ValueIdx
import Idealize.ShloMosaic.Lib.ValueLayout

namespace Cert.LibMatmulPlain

open Idealize.ShloMosaic Idealize.ShloMosaic.ValueIdx
open scoped BigOperators

variable {M K N : ℕ}

/-- The left operand's row coordinate is the result's row coordinate. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contraction index. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction index. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- Entry (i, j) of l·r, accumulated into zero: the sum over q of l[i, q] · r[q, j]. -/
theorem matmul_plain_apply {φ₁ φ₂ : FTy} (l : FVec Ideal ⟨2, ![M, K]⟩ φ₁) (r : FVec Ideal ⟨2, ![K, N]⟩ φ₂) (i : Fin M) (j : Fin N) :
    matmul (DotDims.plain M K N) none l r (constant ⟨2, ![M, N]⟩ .f32 0x00000000#32) (ix2 i j)
      = ∑ q : Fin K, l (ix2 i q) * r (ix2 q j) := by
  simp only [matmul]
  rw [Ideal.matmul_constant_zero_apply, ← Equiv.sum_comp (contrEquiv1 (DotDims.plain M K N) K rfl rfl).symm]
  refine Finset.sum_congr rfl fun q _ => ?_
  have hq := contrEquiv1_symm_val (DotDims.plain M K N) K rfl rfl q
  have el : (DotDims.plain M K N).lhsIdx (ix2 i j) ((contrEquiv1 (DotDims.plain M K N) K rfl rfl).symm q) = ix2 i q :=
    funext fun a => Fin.ext (by
      match a with
      | ⟨0, _⟩ => exact lhs_plain_0 _ _
      | ⟨1, _⟩ => exact (lhs_plain_1 _ _).trans hq)
  have er : (DotDims.plain M K N).rhsIdx (ix2 i j) ((contrEquiv1 (DotDims.plain M K N) K rfl rfl).symm q) = ix2 q j :=
    funext fun a => Fin.ext (by
      match a with
      | ⟨0, _⟩ => exact (rhs_plain_0 _ _).trans hq
      | ⟨1, _⟩ => exact rhs_plain_1 _ _)
  rw [el, er]

/-- Entry (i, j) of l·wᵀ for an N×K matrix w: the sum over q of l[i, q] · w[j, q]. -/
theorem matmul_plain_transpose_apply {φ₁ φ₂ : FTy} (l : FVec Ideal ⟨2, ![M, K]⟩ φ₁) (w : FVec Ideal ⟨2, ![N, K]⟩ φ₂)
    (h : (⟨2, ![N, K]⟩ : Shape).Transposes [1, 0] ⟨2, ![K, N]⟩) (i : Fin M) (j : Fin N) :
    matmul (DotDims.plain M K N) none l (transpose ⟨2, ![K, N]⟩ [1, 0] w h) (constant ⟨2, ![M, N]⟩ .f32 0x00000000#32) (ix2 i j)
      = ∑ q : Fin K, l (ix2 i q) * w (ix2 j q) := by
  rw [matmul_plain_apply]
  exact Finset.sum_congr rfl fun q _ => by rw [transpose_ix2_apply]

end Cert.LibMatmulPlain
-- ==== Proof.LibKeepdims.lean ====
/-
  A reduced axis kept as a unit axis, read by coordinates: the two layout steps that carry a per-row quantity
  (a row's maximum, a row's sum) back over the row.

  * an [a] vector cast to a column [a, 1] reads, at (i, u), the vector at i (the unit coordinate u is 0);
  * a column [a, 1] broadcast along its unit axis to [a, b] reads, at (i, j), the column at (i, 0).

  Both are the library's general reading lemmas (a cast keeps the row-major position; a broadcast reads 0 on a unit
  axis) instantiated at these small shapes, with every index written by its coordinates.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.Region0.lean ====
/-
  The edge region, read as values: what the two output arrays hold when the region's 125 grid points have run.

  Point t stages rows 6400·t … 6400·t + 6399 of the three gathered / edge-feature arrays and of the strain column,
  and the weight and bias arrays whole; its body computes, for a staged row p and an output feature q,
      proj = Σ_k xj[p,k]·wj[k,q] + Σ_k xi[p,k]·wi[k,q] + st[p,0]·ws[0,q] + Σ_k ea[p,k]·we[k,q] + bm[0,q],
      msg = softplus proj,      edge = Σ_k msg[p,k]·wd[k,q] + bd[0,q]
  (each matrix product into a zero accumulator is the plain finite sum on the extended reals), and writes the two
  6400×64 blocks back to rows 6400·t … of the outputs. An entry depends on one row only, so block t of each output is
  block t of ONE whole-array function of the arrays the region found; the 125 blocks tile the 800000 rows, hence each
  output array ends as that function.
-/
import proofs.«415017_j47390669144219_3_alg».proof.Proof.Gen.KernelIdeal.Frame
import proofs.«415017_j47390669144219_3_alg».proof.Proof.Spec
import proofs.«415017_j47390669144219_3_alg».proof.Proof.LibMatmulPlain
import proofs.«415017_j47390669144219_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeRegion

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.MsgPass
open scoped BigOperators

/-- The body's matrix products contract the left operand's columns with the right operand's rows. -/
theorem dot_edge : dot_S6400x64_S64x64_S6400x64_1_0_0_1_n_n = DotDims.plain 6400 64 64 := rfl

/-! ## The body's arithmetic at an entry -/

/-- The pre-activation the body forms from its nine loaded blocks, at row p and feature q. -/
theorem proj_entry (v0 v2 v4 : Vec Ideal S6400x64 .f32) (v5 : Vec Ideal S6400x1 .f32) (v7 v9 v13 : Vec Ideal S64x64 .f32)
    (v11 v15 : Vec Ideal S1x64 .f32) (p : Fin 6400) (q : Fin 64) :
    k0_pay3 (F := Ideal) v0 v2 v4 v5 v7 v9 v11 v13 v15 (ix2 p q) = projAt v0 v2 v4 v5 v7 v9 v13 v11 v15 p q := by
  unfold k0_pay3 projAt
  simp only [shapeCast_self, addf_apply, mulf_apply, dot_edge, Cert.LibMatmulPlain.matmul_plain_apply,
    Cert.LibKeepdims.broadcastTo_a1_ab_apply, broadcastTo_1b_ab_apply]

/-- The message the body stores in the first output block, at row p and feature q: softplus of the pre-activation
    (the body's NaN test answers "no" on the extended reals, and 0 - |d| is -|d|). -/
theorem msg_entry (v0 v2 v4 : Vec Ideal S6400x64 .f32) (v5 : Vec Ideal S6400x1 .f32) (v7 v9 v13 : Vec Ideal S64x64 .f32)
    (v11 v15 : Vec Ideal S1x64 .f32) (p : Fin 6400) (q : Fin 64) :
    k0_pay1 (F := Ideal) (k0_pay4 v0 v2 v4 v5 v7 v9 v11 v13 v15) (k0_pay6 v0 v2 v4 v5 v7 v9 v11 v13 v15)
        (k0_pay7 v0 v2 v4 v5 v7 v9 v11 v13 v15) (k0_pay8 v0 v2 v4 v5 v7 v9 v11 v13 v15) (Scalar.ofBits .f32 0x00000000#32) (ix2 p q)
      = msgAt v0 v2 v4 v5 v7 v9 v13 v11 v15 p q := by
  unfold k0_pay1 k0_pay4 k0_pay6 k0_pay7 k0_pay8 k0_pay5 msgAt
  simp only [select_apply, addf_apply, subf_apply, maximumf_apply, cmpf_apply, broadcast_apply, exp, log1p, absf, proj_entry]
  simp only [Ideal.ofBits_def, Ideal.ofBits_zero_f32, Ideal.cmpf_def, Ideal.absf_def, Ideal.log1p_def, Ideal.exp_def]
  exact softplus_sub_form _

/-- The updated edge feature the body stores in the second output block: the row of messages times the edge weights,
    plus the bias row. -/
theorem edge_entry (v0 v2 v4 : Vec Ideal S6400x64 .f32) (v5 : Vec Ideal S6400x1 .f32) (v7 v9 v13 : Vec Ideal S64x64 .f32)
    (v11 v15 : Vec Ideal S1x64 .f32) (v42 : Vec Ideal S64x64 .f32) (v43 : Vec Ideal S1x64 .f32) (p : Fin 6400) (q : Fin 64) :
    k0_pay2 (F := Ideal) (k0_pay4 v0 v2 v4 v5 v7 v9 v11 v13 v15) (k0_pay6 v0 v2 v4 v5 v7 v9 v11 v13 v15)
        (k0_pay7 v0 v2 v4 v5 v7 v9 v11 v13 v15) (k0_pay8 v0 v2 v4 v5 v7 v9 v11 v13 v15) (Scalar.ofBits .f32 0x00000000#32) v42 v43 (ix2 p q)
      = edgeAt (msgArr v0 v2 v4 v5 v7 v9 v13 v11 v15) v42 v43 p q := by
  unfold k0_pay2 edgeAt
  simp only [shapeCast_self, addf_apply, dot_edge, Cert.LibMatmulPlain.matmul_plain_apply, broadcastTo_1b_ab_apply, msg_entry]
  rfl

/-! ## A point's blocks, read off the arrays the region finds -/

section Blocks

variable (V : (c : Dev nD) → (b : Ref sig .tc) → Buf (Elt Ideal) ((c : Thread nD τ).loc b))

/-- The arrays the region finds, at their literal types. -/
abbrev aXj (c : Dev nD) : Vec Ideal S800000x64 .f32 := V c main_v4
abbrev aXi (c : Dev nD) : Vec Ideal S800000x64 .f32 := V c main_v5
abbrev aEa (c : Dev nD) : Vec Ideal S800000x64 .f32 := V c main_arg2
abbrev aSt (c : Dev nD) : Vec Ideal S800000x1 .f32 := V c main_v11
abbrev aWj (c : Dev nD) : Vec Ideal S64x64 .f32 := V c main_v12
abbrev aWi (c : Dev nD) : Vec Ideal S64x64 .f32 := V c main_v13
abbrev aWs (c : Dev nD) : Vec Ideal S1x64 .f32 := V c main_v14
abbrev aWe (c : Dev nD) : Vec Ideal S64x64 .f32 := V c main_v15
abbrev aBm (c : Dev nD) : Vec Ideal S1x64 .f32 := V c main_v16
abbrev aWd (c : Dev nD) : Vec Ideal S64x64 .f32 := V c main_arg9
abbrev aBd (c : Dev nD) : Vec Ideal S1x64 .f32 := V c main_v17

/-- The index maps over the 125 points: the row windows and the two outputs move with the point, the weight and
    bias windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

theorem t_lt (t : Fin cfg0.N) : t.val < 125 := by have h := t.isLt; have e : cfg0.N = 125 := N_0; omega

/-- The array row that block row p of point t is. -/
def rowOf (t : Fin cfg0.N) (p : Fin 6400) : Fin 800000 := ⟨t.val * 6400 + p.val, by have := t_lt t; have := p.isLt; omega⟩

/-- Block row p of a row window at point t is array row 6400·t + p (64-wide windows). -/
theorem blk_row64 (c : Dev nD) (t : Fin cfg0.N) (p : Fin 6400) (k : Fin 64) :
    iblk0 V c 0 t (ix2 p k) = aXj V c (ix2 (rowOf t p) k) ∧ iblk0 V c 1 t (ix2 p k) = aXi V c (ix2 (rowOf t p) k)
    ∧ iblk0 V c 2 t (ix2 p k) = aEa V c (ix2 (rowOf t p) k) := by
  obtain ⟨e00, e01, e10, e11, e20, e21, -⟩ := idx_facts t
  refine ⟨?_, ?_, ?_⟩
  · show V c main_v4 (((cfg0.win 0).blk t).view.emb (ix2 p k)) = V c main_v4 (ix2 (rowOf t p) k)
    refine congrArg _ (funext fun a => Fin.ext ?_)
    match a with
    | ⟨0, _⟩ => show win0_0.index t (0 : Fin 2) * 6400 + 1 * p.val = t.val * 6400 + p.val; omega
    | ⟨1, _⟩ => show win0_0.index t (1 : Fin 2) * 64 + 1 * k.val = k.val; omega
  · show V c main_v5 (((cfg0.win 1).blk t).view.emb (ix2 p k)) = V c main_v5 (ix2 (rowOf t p) k)
    refine congrArg _ (funext fun a => Fin.ext ?_)
    match a with
    | ⟨0, _⟩ => show win0_1.index t (0 : Fin 2) * 6400 + 1 * p.val = t.val * 6400 + p.val; omega
    | ⟨1, _⟩ => show win0_1.index t (1 : Fin 2) * 64 + 1 * k.val = k.val; omega
  · show V c main_arg2 (((cfg0.win 2).blk t).view.emb (ix2 p k)) = V c main_arg2 (ix2 (rowOf t p) k)
    refine congrArg _ (funext fun a => Fin.ext ?_)
    match a with
    | ⟨0, _⟩ => show win0_2.index t (0 : Fin 2) * 6400 + 1 * p.val = t.val * 6400 + p.val; omega
    | ⟨1, _⟩ => show win0_2.index t (1 : Fin 2) * 64 + 1 * k.val = k.val; omega

/-- The same for the one-column strain window. -/
theorem blk_row1 (c : Dev nD) (t : Fin cfg0.N) (p : Fin 6400) :
    iblk0 V c 3 t (ix2 p 0) = aSt V c (ix2 (rowOf t p) 0) := by
  obtain ⟨-, -, -, -, -, -, e30, e31, -⟩ := idx_facts t
  show V c main_v11 (((cfg0.win 3).blk t).view.emb (ix2 p 0)) = V c main_v11 (ix2 (rowOf t p) 0)
  refine congrArg _ (funext fun a => Fin.ext ?_)
  match a with
  | ⟨0, _⟩ => show win0_3.index t (0 : Fin 2) * 6400 + 1 * p.val = t.val * 6400 + p.val; omega
  | ⟨1, _⟩ => show win0_3.index t (1 : Fin 2) * 1 + 1 * 0 = 0; omega

/-- The weight and bias windows stage their arrays whole at every point. -/
theorem blk_whole (c : Dev nD) (t : Fin cfg0.N) :
    iblk0 V c 4 t = aWj V c ∧ iblk0 V c 5 t = aWi V c ∧ iblk0 V c 6 t = aWs V c ∧ iblk0 V c 7 t = aWe V c
    ∧ iblk0 V c 8 t = aBm V c ∧ iblk0 V c 9 t = aWd V c ∧ iblk0 V c 10 t = aBd V c := by
  obtain ⟨-, -, -, -, -, -, -, -, e40, e41, e50, e51, e60, e61, e70, e71, e80, e81, e90, e91, e100, e101, -⟩ := idx_facts t
  refine ⟨?_, ?_, ?_, ?_, ?_, ?_, ?_⟩
  · funext y
    show V c main_v12 (((cfg0.win 4).blk t).view.emb y) = V c main_v12 y
    refine congrArg _ (funext fun a => Fin.ext ?_)
    match a with
    | ⟨0, _⟩ => show win0_4.index t (0 : Fin 2) * 64 + 1 * (y 0).val = (y 0).val; omega
    | ⟨1, _⟩ => show win0_4.index t (1 : Fin 2) * 64 + 1 * (y 1).val = (y 1).val; omega
  · funext y
    show V c main_v13 (((cfg0.win 5).blk t).view.emb y) = V c main_v13 y
    refine congrArg _ (funext fun a => Fin.ext ?_)
    match a with
    | ⟨0, _⟩ => show win0_5.index t (0 : Fin 2) * 64 + 1 * (y 0).val = (y 0).val; omega
    | ⟨1, _⟩ => show win0_5.index t (1 : Fin 2) * 64 + 1 * (y 1).val = (y 1).val; omega
  · funext y
    show V c main_v14 (((cfg0.win 6).blk t).view.emb y) = V c main_v14 y
    refine congrArg _ (funext fun a => Fin.ext ?_)
    match a with
    | ⟨0, _⟩ => show win0_6.index t (0 : Fin 2) * 1 + 1 * (y 0).val = (y 0).val; omega
    | ⟨1, _⟩ => show win0_6.index t (1 : Fin 2) * 64 + 1 * (y 1).val = (y 1).val; omega
  · funext y
    show V c main_v15 (((cfg0.win 7).blk t).view.emb y) = V c main_v15 y
    refine congrArg _ (funext fun a => Fin.ext ?_)
    match a with
    | ⟨0, _⟩ => show win0_7.index t (0 : Fin 2) * 64 + 1 * (y 0).val = (y 0).val; omega
    | ⟨1, _⟩ => show win0_7.index t (1 : Fin 2) * 64 + 1 * (y 1).val = (y 1).val; omega
  · funext y
    show V c main_v16 (((cfg0.win 8).blk t).view.emb y) = V c main_v16 y
    refine congrArg _ (funext fun a => Fin.ext ?_)
    match a with
    | ⟨0, _⟩ => show win0_8.index t (0 : Fin 2) * 1 + 1 * (y 0).val = (y 0).val; omega
    | ⟨1, _⟩ => show win0_8.index t (1 : Fin 2) * 64 + 1 * (y 1).val = (y 1).val; omega
  · funext y
    show V c main_arg9 (((cfg0.win 9).blk t).view.emb y) = V c main_arg9 y
    refine congrArg _ (funext fun a => Fin.ext ?_)
    match a with
    | ⟨0, _⟩ => show win0_9.index t (0 : Fin 2) * 64 + 1 * (y 0).val = (y 0).val; omega
    | ⟨1, _⟩ => show win0_9.index t (1 : Fin 2) * 64 + 1 * (y 1).val = (y 1).val; omega
  · funext y
    show V c main_v17 (((cfg0.win 10).blk t).view.emb y) = V c main_v17 y
    refine congrArg _ (funext fun a => Fin.ext ?_)
    match a with
    | ⟨0, _⟩ => show win0_10.index t (0 : Fin 2) * 1 + 1 * (y 0).val = (y 0).val; omega
    | ⟨1, _⟩ => show win0_10.index t (1 : Fin 2) * 64 + 1 * (y 1).val = (y 1).val; omega

/-! ## What a point writes back, and the arrays after the last point -/

theorem hz : (![0, 0] : Fin 2 → Nat) = fun _ => 0 := funext fun a => by fin_cases a <;> rfl

/-- The first stored block as a whole: the messages of the staged rows. -/
theorem msg_block (x0 x1 x2 : Vec Ideal S6400x64 .f32) (x3 : Vec Ideal S6400x1 .f32) (x4 x5 x7 : Vec Ideal S64x64 .f32)
    (x6 x8 : Vec Ideal S1x64 .f32) :
    k0_pay1 (F := Ideal) (k0_pay4 x0 x1 x2 x3 x4 x5 x6 x7 x8) (k0_pay6 x0 x1 x2 x3 x4 x5 x6 x7 x8)
        (k0_pay7 x0 x1 x2 x3 x4 x5 x6 x7 x8) (k0_pay8 x0 x1 x2 x3 x4 x5 x6 x7 x8) (Scalar.ofBits .f32 0x00000000#32)
      = msgArr x0 x1 x2 x3 x4 x5 x7 x6 x8 := by
  funext j
  rw [eq_ix2 j]
  exact msg_entry x0 x1 x2 x3 x4 x5 x7 x6 x8 (j 0) (j 1)

/-- The second stored block as a whole: the updated edge features of the staged rows. -/
theorem edge_block (x0 x1 x2 : Vec Ideal S6400x64 .f32) (x3 : Vec Ideal S6400x1 .f32) (x4 x5 x7 : Vec Ideal S64x64 .f32)
    (x6 x8 : Vec Ideal S1x64 .f32) (x9 : Vec Ideal S64x64 .f32) (x10 : Vec Ideal S1x64 .f32) :
    k0_pay2 (F := Ideal) (k0_pay4 x0 x1 x2 x3 x4 x5 x6 x7 x8) (k0_pay6 x0 x1 x2 x3 x4 x5 x6 x7 x8)
        (k0_pay7 x0 x1 x2 x3 x4 x5 x6 x7 x8) (k0_pay8 x0 x1 x2 x3 x4 x5 x6 x7 x8) (Scalar.ofBits .f32 0x00000000#32) x9 x10
      = edgeArr (msgArr x0 x1 x2 x3 x4 x5 x7 x6 x8) x9 x10 := by
  funext j
  rw [eq_ix2 j]
  exact edge_entry x0 x1 x2 x3 x4 x5 x7 x6 x8 x9 x10 (j 0) (j 1)

/-- Where block entry j of an output window lands in the array: row 6400·t + j₀, column j₁. -/
theorem emb_out (t : Fin cfg0.N) (j : S6400x64.Idx) :
    (((cfg0.win 11).blk t).view.emb j) 0 = rowOf t (j 0) ∧ (((cfg0.win 11).blk t).view.emb j) 1 = j 1
    ∧ (((cfg0.win 12).blk t).view.emb j) 0 = rowOf t (j 0) ∧ (((cfg0.win 12).blk t).view.emb j) 1 = j 1 := by
  obtain ⟨-, -, -, -, -, -, -, -, -, -, -, -, -, -, -, -, -, -, -, -, -, -, e110, e111, e120, e121⟩ := idx_facts t
  refine ⟨Fin.ext ?_, Fin.ext ?_, Fin.ext ?_, Fin.ext ?_⟩
  · show win0_11.index t (0 : Fin 2) * 6400 + 1 * (j 0).val = t.val * 6400 + (j 0).val; omega
  · show win0_11.index t (1 : Fin 2) * 64 + 1 * (j 1).val = (j 1).val; omega
  · show win0_12.index t (0 : Fin 2) * 6400 + 1 * (j 0).val = t.val * 6400 + (j 0).val; omega
  · show win0_12.index t (1 : Fin 2) * 64 + 1 * (j 1).val = (j 1).val; omega

/-- Point t writes back block t of the whole-array message function of the arrays the region found. -/
theorem flushed_msg (c : Dev nD) (t : Fin cfg0.N) :
    (dat0 V c).flushed 11 t = ((cfg0.win 11).blk t).view.read (Elt Ideal) (msgArr (aXj V c) (aXi V c) (aEa V c) (aSt V c) (aWj V c) (aWi V c) (aWe V c) (aWs V c) (aBm V c)) := by
  show (cfg0.win 11).cut (grid0.coords t) ((dat0 V c).after 11 t) = _
  rw [after0_11]
  unfold out0_11
  rw [View.canon_unit_zero hz]
  simp only [View.ld_unit_zero (S := S6400x64) hz, View.ld_unit_zero (S := S6400x1) hz, View.ld_unit_zero (S := S64x64) hz,
    View.ld_unit_zero (S := S1x64) hz]
  rw [msg_block (iblk0 V c 0 t) (iblk0 V c 1 t) (iblk0 V c 2 t) (iblk0 V c 3 t) (iblk0 V c 4 t) (iblk0 V c 5 t) (iblk0 V c 7 t) (iblk0 V c 6 t) (iblk0 V c 8 t)]
  obtain ⟨w4, w5, w6, w7, w8, -, -⟩ := blk_whole V c t
  funext j
  obtain ⟨r0, r1, -, -⟩ := emb_out t j
  show msgAt (iblk0 V c 0 t) (iblk0 V c 1 t) (iblk0 V c 2 t) (iblk0 V c 3 t) (iblk0 V c 4 t) (iblk0 V c 5 t) (iblk0 V c 7 t) (iblk0 V c 6 t) (iblk0 V c 8 t) (j 0) (j 1)
    = msgAt (aXj V c) (aXi V c) (aEa V c) (aSt V c) (aWj V c) (aWi V c) (aWe V c) (aWs V c) (aBm V c) ((((cfg0.win 11).blk t).view.emb j) 0) ((((cfg0.win 11).blk t).view.emb j) 1)
  rw [r0, r1]
  exact msgAt_congr (j 1) (fun k => (blk_row64 V c t (j 0) k).1) (fun k => (blk_row64 V c t (j 0) k).2.1)
    (fun k => (blk_row64 V c t (j 0) k).2.2) (blk_row1 V c t (j 0)) w4 w5 w7 w6 w8

/-- Point t writes back block t of the whole-array edge-update function. -/
theorem flushed_edge (c : Dev nD) (t : Fin cfg0.N) :
    (dat0 V c).flushed 12 t = ((cfg0.win 12).blk t).view.read (Elt Ideal)
      (edgeArr (msgArr (aXj V c) (aXi V c) (aEa V c) (aSt V c) (aWj V c) (aWi V c) (aWe V c) (aWs V c) (aBm V c)) (aWd V c) (aBd V c)) := by
  show (cfg0.win 12).cut (grid0.coords t) ((dat0 V c).after 12 t) = _
  rw [after0_12]
  unfold out0_12
  rw [View.canon_unit_zero hz]
  simp only [View.ld_unit_zero (S := S6400x64) hz, View.ld_unit_zero (S := S6400x1) hz, View.ld_unit_zero (S := S64x64) hz,
    View.ld_unit_zero (S := S1x64) hz]
  rw [edge_block (iblk0 V c 0 t) (iblk0 V c 1 t) (iblk0 V c 2 t) (iblk0 V c 3 t) (iblk0 V c 4 t) (iblk0 V c 5 t) (iblk0 V c 7 t) (iblk0 V c 6 t) (iblk0 V c 8 t) (iblk0 V c 9 t) (iblk0 V c 10 t)]
  obtain ⟨w4, w5, w6, w7, w8, w9, w10⟩ := blk_whole V c t
  funext j
  obtain ⟨-, -, r0, r1⟩ := emb_out t j
  show edgeAt (msgArr (iblk0 V c 0 t) (iblk0 V c 1 t) (iblk0 V c 2 t) (iblk0 V c 3 t) (iblk0 V c 4 t) (iblk0 V c 5 t) (iblk0 V c 7 t) (iblk0 V c 6 t) (iblk0 V c 8 t)) (iblk0 V c 9 t) (iblk0 V c 10 t) (j 0) (j 1)
    = edgeAt (msgArr (aXj V c) (aXi V c) (aEa V c) (aSt V c) (aWj V c) (aWi V c) (aWe V c) (aWs V c) (aBm V c)) (aWd V c) (aBd V c) ((((cfg0.win 12).blk t).view.emb j) 0) ((((cfg0.win 12).blk t).view.emb j) 1)
  rw [r0, r1]
  refine edgeAt_congr (j 1) (fun k => ?_) w9 w10
  show msgAt (iblk0 V c 0 t) (iblk0 V c 1 t) (iblk0 V c 2 t) (iblk0 V c 3 t) (iblk0 V c 4 t) (iblk0 V c 5 t) (iblk0 V c 7 t) (iblk0 V c 6 t) (iblk0 V c 8 t) (j 0) k = msgAt (aXj V c) (aXi V c) (aEa V c) (aSt V c) (aWj V c) (aWi V c) (aWe V c) (aWs V c) (aBm V c) (rowOf t (j 0)) k
  exact msgAt_congr k (fun k => (blk_row64 V c t (j 0) k).1) (fun k => (blk_row64 V c t (j 0) k).2.1)
      (fun k => (blk_row64 V c t (j 0) k).2.2) (blk_row1 V c t (j 0)) w4 w5 w7 w6 w8

/-- An array index lies in point t's block of an output window iff each coordinate lies in the block's range. -/
theorem mem_blk (t : Fin cfg0.N) (i : S800000x64.Idx) :
    (i ∈ ((cfg0.win 11).blk t).view.set ↔ ∀ a : Fin 2, win0_11.index t a * S6400x64.size a ≤ (i a).val ∧ (i a).val < win0_11.index t a * S6400x64.size a + S6400x64.size a)
    ∧ (i ∈ ((cfg0.win 12).blk t).view.set ↔ ∀ a : Fin 2, win0_12.index t a * S6400x64.size a ≤ (i a).val ∧ (i a).val < win0_12.index t a * S6400x64.size a + S6400x64.size a) := by
  constructor
  · show i ∈ ((View.whole main_v21_0).slice (win0_11.rect t)).set ↔ _
    rw [View.set_slice_whole, Rect.mem_set_unit]
    exact Iff.rfl
  · show i ∈ ((View.whole main_v21_1).slice (win0_12.rect t)).set ↔ _
    rw [View.set_slice_whole, Rect.mem_set_unit]
    exact Iff.rfl

/-- The 125 blocks of 6400 rows tile the 800000 rows: row r lies in the block of point r / 6400. -/
theorem covered (i : S800000x64.Idx) :
    (∃ t : Fin cfg0.N, (cfg0.win 11).flush t = true ∧ i ∈ ((cfg0.win 11).blk t).view.set)
    ∧ (∃ t : Fin cfg0.N, (cfg0.win 12).flush t = true ∧ i ∈ ((cfg0.win 12).blk t).view.set) := by
  have hi0 : (i 0).val < 800000 := (i 0).isLt
  have hi1 : (i 1).val < 64 := (i 1).isLt
  have hN : cfg0.N = 125 := N_0
  let t : Fin cfg0.N := ⟨(i 0).val / 6400, by omega⟩
  have ht : t.val = (i 0).val / 6400 := rfl
  obtain ⟨-, -, -, -, -, -, -, -, -, -, -, -, -, -, -, -, -, -, -, -, -, -, e110, e111, e120, e121⟩ := idx_facts t
  refine ⟨⟨t, flush0_11 t, ?_⟩, ⟨t, flush0_12 t, ?_⟩⟩
  · rw [(mem_blk t i).1]
    intro a
    match a with
    | ⟨0, _⟩ => show win0_11.index t (0 : Fin 2) * 6400 ≤ (i 0).val ∧ (i 0).val < win0_11.index t (0 : Fin 2) * 6400 + 6400; omega
    | ⟨1, _⟩ => show win0_11.index t (1 : Fin 2) * 64 ≤ (i 1).val ∧ (i 1).val < win0_11.index t (1 : Fin 2) * 64 + 64; omega
  · rw [(mem_blk t i).2]
    intro a
    match a with
    | ⟨0, _⟩ => show win0_12.index t (0 : Fin 2) * 6400 ≤ (i 0).val ∧ (i 0).val < win0_12.index t (0 : Fin 2) * 6400 + 6400; omega
    | ⟨1, _⟩ => show win0_12.index t (1 : Fin 2) * 64 ≤ (i 1).val ∧ (i 1).val < win0_12.index t (1 : Fin 2) * 64 + 64; omega

/-- THE MESSAGE ARRAY after the region: the message function of the arrays the region found. -/
theorem msg_final (c : Dev nD) :
    (dat0 V c).arrAt 11 cfg0.N = msgArr (aXj V c) (aXi V c) (aEa V c) (aSt V c) (aWj V c) (aWi V c) (aWe V c) (aWs V c) (aBm V c) :=
  (dat0 V c).arrAt_eq_of_cover 11 _ (fun t _ => flushed_msg V c t) (fun i => (covered i).1)

/-- THE UPDATED EDGE FEATURES after the region. -/
theorem edge_final (c : Dev nD) :
    (dat0 V c).arrAt 12 cfg0.N = edgeArr (msgArr (aXj V c) (aXi V c) (aEa V c) (aSt V c) (aWj V c) (aWi V c) (aWe V c) (aWs V c) (aBm V c)) (aWd V c) (aBd V c) :=
  (dat0 V c).arrAt_eq_of_cover 12 _ (fun t _ => flushed_edge V c t) (fun i => (covered i).2)

end Blocks

end Cert.KernelIdeal.EdgeRegion

end
-- ==== Proof.Region1.lean ====
/-
  The node region, read as values: what the output array holds when the region's 10 grid points have run.

  Point t stages rows 5000·t … 5000·t + 4999 of the node features x, of the summed messages agg and of the count column
  cnt, and the two weight blocks and the bias whole; its body computes, for a staged row p and an output feature q,
      Σ_k x[p,k]·wx[k,q] + Σ_k (agg[p,k] / max(cnt[p,0], 1))·wa[k,q] + bu[0,q]
  and writes the 5000×64 block back to rows 5000·t … of the output. An entry depends on one row only, so block t of the
  output is block t of ONE whole-array function of the arrays the region found; the 10 blocks tile the 50000 rows.
-/
import proofs.«415017_j47390669144219_3_alg».proof.Proof.Gen.KernelIdeal.Frame
import proofs.«415017_j47390669144219_3_alg».proof.Proof.Spec
import proofs.«415017_j47390669144219_3_alg».proof.Proof.LibMatmulPlain
import proofs.«415017_j47390669144219_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeRegion

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.MsgPass
open scoped BigOperators

/-- The body's matrix products contract the left operand's columns with the right operand's rows. -/
theorem dot_node : dot_S5000x64_S64x64_S5000x64_1_0_0_1_n_n = DotDims.plain 5000 64 64 := rfl

/-! ## The body's arithmetic at an entry -/

theorem node_entry (v0 v1 : Vec Ideal S5000x64 .f32) (v3 : Vec Ideal S5000x1 .f32) (v9 v11 : Vec Ideal S64x64 .f32)
    (v13 : Vec Ideal S1x64 .f32) (p : Fin 5000) (q : Fin 64) :
    k1_pay1 (F := Ideal) v0 v1 v3 v9 v11 v13 (ix2 p q) = nodeAt v0 v1 v3 v9 v11 v13 p q := by
  unfold k1_pay1 nodeAt
  simp only [shapeCast_self, addf_apply, divf_apply, maximumf_apply, broadcast_apply, dot_node,
    Cert.LibMatmulPlain.matmul_plain_apply, Cert.LibKeepdims.broadcastTo_a1_ab_apply, broadcastTo_1b_ab_apply]
  rfl

theorem node_block (x0 x1 : Vec Ideal S5000x64 .f32) (x2 : Vec Ideal S5000x1 .f32) (x3 x4 : Vec Ideal S64x64 .f32)
    (x5 : Vec Ideal S1x64 .f32) : k1_pay1 (F := Ideal) x0 x1 x2 x3 x4 x5 = nodeArr x0 x1 x2 x3 x4 x5 := by
  funext j
  rw [eq_ix2 j]
  exact node_entry x0 x1 x2 x3 x4 x5 (j 0) (j 1)

/-! ## A point's blocks, read off the arrays the region finds -/

section Blocks

variable (V : (c : Dev nD) → (b : Ref sig .tc) → Buf (Elt Ideal) ((c : Thread nD τ).loc b))

/-- The arrays the region finds, at their literal types. -/
abbrev aX (c : Dev nD) : Vec Ideal S50000x64 .f32 := V c main_arg0
abbrev aAgg (c : Dev nD) : Vec Ideal S50000x64 .f32 := V c main_v28
abbrev aCnt (c : Dev nD) : Vec Ideal S50000x1 .f32 := V c main_v25
abbrev aWx (c : Dev nD) : Vec Ideal S64x64 .f32 := V c main_v19
abbrev aWa (c : Dev nD) : Vec Ideal S64x64 .f32 := V c main_v20
abbrev aBu (c : Dev nD) : Vec Ideal S1x64 .f32 := V c main_v18

/-- The index maps over the 10 points: the row windows and the output move with the point, the weight and bias
    windows stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem t_lt (t : Fin cfg1.N) : t.val < 10 := by have h := t.isLt; have e : cfg1.N = 10 := N_1; omega

/-- The array row that block row p of point t is. -/
def rowOf (t : Fin cfg1.N) (p : Fin 5000) : Fin 50000 := ⟨t.val * 5000 + p.val, by have := t_lt t; have := p.isLt; omega⟩

theorem blk_row64 (c : Dev nD) (t : Fin cfg1.N) (p : Fin 5000) (k : Fin 64) :
    iblk1 V c 0 t (ix2 p k) = aX V c (ix2 (rowOf t p) k) ∧ iblk1 V c 1 t (ix2 p k) = aAgg V c (ix2 (rowOf t p) k) := by
  obtain ⟨e00, e01, e10, e11, -⟩ := idx_facts t
  refine ⟨?_, ?_⟩
  · show V c main_arg0 (((cfg1.win 0).blk t).view.emb (ix2 p k)) = V c main_arg0 (ix2 (rowOf t p) k)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  · show V c main_v28 (((cfg1.win 1).blk t).view.emb (ix2 p k)) = V c main_v28 (ix2 (rowOf t p) k)
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 64 + 1 * k.val = k.val; omega

theorem blk_row1 (c : Dev nD) (t : Fin cfg1.N) (p : Fin 5000) :
    iblk1 V c 2 t (ix2 p 0) = aCnt V c (ix2 (rowOf t p) 0) := by
  obtain ⟨-, -, -, -, e20, e21, -⟩ := idx_facts t
  show V c main_v25 (((cfg1.win 2).blk t).view.emb (ix2 p 0)) = V c main_v25 (ix2 (rowOf t p) 0)
  refine congrArg _ (funext fun a => Fin.ext ?_)
  match a with
  | ⟨0, _⟩ => show win1_2.index t (0 : Fin 2) * 5000 + 1 * p.val = t.val * 5000 + p.val; omega
  | ⟨1, _⟩ => show win1_2.index t (1 : Fin 2) * 1 + 1 * 0 = 0; omega

theorem blk_whole (c : Dev nD) (t : Fin cfg1.N) :
    iblk1 V c 3 t = aWx V c ∧ iblk1 V c 4 t = aWa V c ∧ iblk1 V c 5 t = aBu V c := by
  obtain ⟨-, -, -, -, -, -, e30, e31, e40, e41, e50, e51, -⟩ := idx_facts t
  refine ⟨?_, ?_, ?_⟩
  · funext y
    show V c main_v19 (((cfg1.win 3).blk t).view.emb y) = V c main_v19 y
    refine congrArg _ (funext fun a => Fin.ext ?_)
    match a with
    | ⟨0, _⟩ => show win1_3.index t (0 : Fin 2) * 64 + 1 * (y 0).val = (y 0).val; omega
    | ⟨1, _⟩ => show win1_3.index t (1 : Fin 2) * 64 + 1 * (y 1).val = (y 1).val; omega
  · funext y
    show V c main_v20 (((cfg1.win 4).blk t).view.emb y) = V c main_v20 y
    refine congrArg _ (funext fun a => Fin.ext ?_)
    match a with
    | ⟨0, _⟩ => show win1_4.index t (0 : Fin 2) * 64 + 1 * (y 0).val = (y 0).val; omega
    | ⟨1, _⟩ => show win1_4.index t (1 : Fin 2) * 64 + 1 * (y 1).val = (y 1).val; omega
  · funext y
    show V c main_v18 (((cfg1.win 5).blk t).view.emb y) = V c main_v18 y
    refine congrArg _ (funext fun a => Fin.ext ?_)
    match a with
    | ⟨0, _⟩ => show win1_5.index t (0 : Fin 2) * 1 + 1 * (y 0).val = (y 0).val; omega
    | ⟨1, _⟩ => show win1_5.index t (1 : Fin 2) * 64 + 1 * (y 1).val = (y 1).val; omega

/-! ## What a point writes back, and the array after the last point -/

theorem hz : (![0, 0] : Fin 2 → Nat) = fun _ => 0 := funext fun a => by fin_cases a <;> rfl

theorem emb_out (t : Fin cfg1.N) (j : S5000x64.Idx) :
    (((cfg1.win 6).blk t).view.emb j) 0 = rowOf t (j 0) ∧ (((cfg1.win 6).blk t).view.emb j) 1 = j 1 := by
  obtain ⟨-, -, -, -, -, -, -, -, -, -, -, -, e60, e61⟩ := idx_facts t
  refine ⟨Fin.ext ?_, Fin.ext ?_⟩
  · show win1_6.index t (0 : Fin 2) * 5000 + 1 * (j 0).val = t.val * 5000 + (j 0).val; omega
  · show win1_6.index t (1 : Fin 2) * 64 + 1 * (j 1).val = (j 1).val; omega

/-- Point t writes back block t of the whole-array node-update function of the arrays the region found. -/
theorem flushed_node (c : Dev nD) (t : Fin cfg1.N) :
    (dat1 V c).flushed 6 t = ((cfg1.win 6).blk t).view.read (Elt Ideal) (nodeArr (aX V c) (aAgg V c) (aCnt V c) (aWx V c) (aWa V c) (aBu V c)) := by
  show (cfg1.win 6).cut (grid1.coords t) ((dat1 V c).after 6 t) = _
  rw [after1_6]
  unfold out1_6
  rw [View.canon_unit_zero hz]
  simp only [View.ld_unit_zero (S := S5000x64) hz, View.ld_unit_zero (S := S5000x1) hz, View.ld_unit_zero (S := S64x64) hz,
    View.ld_unit_zero (S := S1x64) hz]
  rw [node_block (iblk1 V c 0 t) (iblk1 V c 1 t) (iblk1 V c 2 t) (iblk1 V c 3 t) (iblk1 V c 4 t) (iblk1 V c 5 t)]
  obtain ⟨w3, w4, w5⟩ := blk_whole V c t
  funext j
  obtain ⟨r0, r1⟩ := emb_out t j
  show nodeAt (iblk1 V c 0 t) (iblk1 V c 1 t) (iblk1 V c 2 t) (iblk1 V c 3 t) (iblk1 V c 4 t) (iblk1 V c 5 t) (j 0) (j 1)
    = nodeAt (aX V c) (aAgg V c) (aCnt V c) (aWx V c) (aWa V c) (aBu V c) ((((cfg1.win 6).blk t).view.emb j) 0) ((((cfg1.win 6).blk t).view.emb j) 1)
  rw [r0, r1]
  exact nodeAt_congr (j 1) (fun k => (blk_row64 V c t (j 0) k).1) (fun k => (blk_row64 V c t (j 0) k).2)
    (blk_row1 V c t (j 0)) w3 w4 w5

theorem mem_blk (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v29).slice (win1_6.rect t)).set ↔ _
  rw [View.set_slice_whole, Rect.mem_set_unit]
  exact Iff.rfl

/-- The 10 blocks of 5000 rows tile the 50000 rows: row r lies in the block of point r / 5000. -/
theorem covered (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  have hN : cfg1.N = 10 := N_1
  let t : Fin cfg1.N := ⟨(i 0).val / 5000, by omega⟩
  have ht : t.val = (i 0).val / 5000 := rfl
  obtain ⟨-, -, -, -, -, -, -, -, -, -, -, -, e60, e61⟩ := idx_facts t
  refine ⟨t, flush1_6 t, ?_⟩
  rw [mem_blk t i]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- THE UPDATED NODE FEATURES after the region: the node-update function of the arrays the region found. -/
theorem node_final (c : Dev nD) : (dat1 V c).arrAt 6 cfg1.N = nodeArr (aX V c) (aAgg V c) (aCnt V c) (aWx V c) (aWa V c) (aBu V c) :=
  (dat1 V c).arrAt_eq_of_cover 6 _ (fun t _ => flushed_node V c t) covered

end Blocks

end Cert.KernelIdeal.NodeRegion

end
-- ==== Proof.IndexRange.lean ====
/-
  Row gathers under the index-range precondition.

  The kernel's program takes rows of x by jnp.take in its default mode: an index word u is first wrapped
  (w = u + 50000 if u < 0, else u), the row clamp(w) is gathered, and the result is kept where 0 ≤ w ≤ 49999 and
  replaced by a NaN constant elsewhere. The reference indexes x[u]: the same wrap and the same clamped gather, without
  the replacement. For a word with -50000 ≤ u < 50000 (signed) the wrapped word lies in 0 … 49999: a negative u gives
  u + 50000 ∈ [0, 50000) with no overflow, a non-negative one is itself below 50000. So every lane of the kernel's
  range mask is 1 and the two gathers are one array.
  The precondition's last conjunct is jnp.all over the [2, 800000] index array of exactly these two comparisons; a
  reduce by "and" that came out 1 met a 1 at every index.
-/
import proofs.«415017_j47390669144219_3_alg».proof.KernelIdeal
import proofs.«415017_j47390669144219_3_alg».proof.Pre_finite_inputs
import Idealize.ShloMosaic.Lib.StableHlo.Predicate
import Idealize.ShloMosaic.Lib.ValueIdx
import Idealize.ShloMosaic.Lib.ReduceAll

noncomputable section

namespace Cert.KernelIdeal.NodeGather

open Idealize.ShloMosaic Idealize.ShloMosaic.ValueIdx
open Cert.KernelIdeal

/-! ## One index word -/

/-- The two comparisons of the precondition, read as bounds on the word's signed value. -/
theorem signed_bounds (u : BitVec 32) (hlo : IntOp.cmpi .sge u 4294917296#32 = 1#1) (hhi : IntOp.cmpi .slt u 50000#32 = 1#1) :
    -50000 ≤ u.toInt ∧ u.toInt < 50000 := by
  simp only [IntOp.cmpi, StableHlo.Predicate.ofBool_eq_one_iff, BitVec.sle, BitVec.slt, decide_eq_true_eq] at hlo hhi
  have e1 : (4294917296#32 : BitVec 32).toInt = -50000 := by decide
  have e2 : (50000#32 : BitVec 32).toInt = 50000 := by decide
  omega

/-- The wrapped word passes the kernel's range test 0 ≤ w ≤ 49999. -/
theorem wrapped_in_range (u : BitVec 32) (hlo : IntOp.cmpi .sge u 4294917296#32 = 1#1) (hhi : IntOp.cmpi .slt u 50000#32 = 1#1) :
    IntOp.cmpi .sge (Scalar.select (IntOp.cmpi .slt u 0#32) (IntOp.addi u 50000#32) u) 0#32 = 1#1
    ∧ IntOp.cmpi .sle (Scalar.select (IntOp.cmpi .slt u 0#32) (IntOp.addi u 50000#32) u) 49999#32 = 1#1 := by
  obtain ⟨h1, h2⟩ := signed_bounds u hlo hhi
  have e0 : (0#32 : BitVec 32).toInt = 0 := by decide
  have e3 : (49999#32 : BitVec 32).toInt = 49999 := by decide
  have e2 : (50000#32 : BitVec 32).toInt = 50000 := by decide
  by_cases hneg : u.toInt < 0
  · have c : IntOp.cmpi .slt u 0#32 = 1#1 := by
      simp only [IntOp.cmpi, StableHlo.Predicate.ofBool_eq_one_iff, BitVec.slt, decide_eq_true_eq, e0]; exact hneg
    rw [c, select_one]
    have hw : (IntOp.addi u 50000#32).toInt = u.toInt + 50000 := by
      simp only [IntOp.addi, BitVec.toInt_add, e2]
      rw [Int.bmod_eq_of_le] <;> omega
    simp only [IntOp.cmpi, StableHlo.Predicate.ofBool_eq_one_iff, BitVec.sle, decide_eq_true_eq, e0, e3, hw]
    omega
  · have c : IntOp.cmpi .slt u 0#32 = 0#1 := by
      apply eq_zero_of_ne_one
      simp only [IntOp.cmpi, StableHlo.Predicate.ofBool_eq_one_iff, BitVec.slt, decide_eq_true_eq, e0]; exact hneg
    rw [c, select_zero]
    simp only [IntOp.cmpi, StableHlo.Predicate.ofBool_eq_one_iff, BitVec.sle, decide_eq_true_eq, e0, e3]
    omega

/-! ## A reduce by "and" over ones is one -/

theorem foldl_andi_of_all {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_of_all f l _ (IntOp.andi_eq_one.2 ⟨h, hl a List.mem_cons_self⟩) (fun n hn => hl n (List.mem_cons_of_mem _ hn))

theorem reduce_andi_of_all {s t u : Shape} {axes : List (Fin s.rank)} (x : s.Idx → BitVec 1) (init : u.Idx → BitVec 1)
    (h : s.ReducesTo axes t) (hu : 0 < u.numel) (j : t.Idx) (hinit : ∀ k, init k = 1#1) (hx : ∀ i, x i = 1#1) :
    Host.reduce IntOp.andi x init h hu j = 1#1 := by
  rw [Host.reduce_eq_foldl]
  exact foldl_andi_of_all x _ _ (hinit _) (fun n _ => hx n)

/-! ## The two gathers -/

variable {F : FTy → Type} [FloatOps F] [Facts]
open Facts₀ Facts

/-- A vector of index words wrapped numpy-style and laid out as the gather's [800000, 1] index column. -/
def wrapCol (u : IVec S800000 32) : IVec S800000x1 32 :=
  broadcastInDim S800000x1 ![0] bcast_S800000_S800000x1_0
    (select (cmpi .slt u (broadcastInDim S800000 ![] bcast_S_S800000 (constantI S_ 32 0#32)))
      (addi u (broadcastInDim S800000 ![] bcast_S_S800000 (constantI S_ 32 50000#32))) u)

/-- The kernel's per-row range test of the wrapped words: 0 ≤ w ≤ 49999, "and"-reduced over the column's unit axis. -/
def inRangeMask (u : IVec S800000 32) : IVec S800000 1 :=
  Host.reduce IntOp.andi
    (andi (cmpi .sge (wrapCol u) (broadcastInDim S800000x1 ![] bcast_S_S800000x1 (constantI S_ 32 0#32)))
      (cmpi .sle (wrapCol u) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- Rows of x at the clamped wrapped indices: what x[u] is. -/
def rowsClamped (x : FVec F S50000x64 .f32) (u : IVec S800000 32) : FVec F S800000x64 .f32 :=
  Host.gather gather_S50000x64_S800000x1_S800000x64_1_0_n_n_0_1_164 x (wrapCol u)

/-- The same rows, replaced by the NaN constant where the range test fails: what jnp.take(x, u) is. -/
def rowsFilled (x : FVec F S50000x64 .f32) (u : IVec S800000 32) : FVec F S800000x64 .f32 :=
  select (broadcastInDim S800000x64 ![0] bcast_S800000_S800000x64_0 (inRangeMask u)) (rowsClamped x u)
    (broadcastInDim S800000x64 ![] bcast_S_S800000x64 (constant S_ .f32 0x7FC00000#32))

/-- With every word in [-50000, 50000) the range test passes everywhere. -/
theorem inRangeMask_one (u : IVec S800000 32)
    (hu : ∀ i, IntOp.cmpi .sge (u i) 4294917296#32 = 1#1 ∧ IntOp.cmpi .slt (u i) 50000#32 = 1#1) (k : S800000.Idx) :
    inRangeMask u k = 1#1 := by
  unfold inRangeMask
  refine reduce_andi_of_all _ _ _ _ _ (fun _ => rfl) fun i => ?_
  simp only [wrapCol, broadcastInDim, select, cmpi, addi, andi, constantI]
  exact IntOp.andi_eq_one.2 (wrapped_in_range _ (hu _).1 (hu _).2)

/-- … so nothing is replaced. -/
theorem rowsFilled_eq (x : FVec F S50000x64 .f32) (u : IVec S800000 32)
    (hu : ∀ i, IntOp.cmpi .sge (u i) 4294917296#32 = 1#1 ∧ IntOp.cmpi .slt (u i) 50000#32 = 1#1) :
    rowsFilled x u = rowsClamped x u := by
  funext i
  unfold rowsFilled
  rw [select_apply]
  have h1 : broadcastInDim S800000x64 ![0] bcast_S800000_S800000x64_0 (inRangeMask u) i = 1#1 := by
    simp only [broadcastInDim]
    exact inRangeMask_one u hu _
  rw [h1, select_one]

end Cert.KernelIdeal.NodeGather

/-! ## The precondition, read back -/

namespace Cert.Pre_finite_inputs.IndexRange

open Idealize.ShloMosaic Idealize.ShloMosaic.ValueIdx
open Cert.Pre_finite_inputs

variable [Facts]
open Facts

instance : Subsingleton S_.Idx := ⟨fun a b => funext fun d => d.elim0⟩

/-- If the printed precondition evaluates to 1, every word of the index array passes both range comparisons. -/
theorem words_in_range (a0 : FVec Ideal S50000x64 .f32) (a1 : IVec S2x800000 32) (a2 : FVec Ideal S800000x64 .f32)
    (a3 : FVec Ideal S800000x2 .f32) (a4 : FVec Ideal S800000x1 .f32) (a5 : FVec Ideal S193x64 .f32) (a6 : FVec Ideal S64 .f32)
    (a7 : FVec Ideal S128x64 .f32) (a8 : FVec Ideal S64 .f32) (a9 : FVec Ideal S64x64 .f32) (a10 : FVec Ideal S64 .f32)
    (h : fn (F := Ideal) a0 a1 a2 a3 a4 a5 a6 a7 a8 a9 a10 = fun _ => 1#1) (i : S2x800000.Idx) :
    IntOp.cmpi .sge (a1 i) 4294917296#32 = 1#1 ∧ IntOp.cmpi .slt (a1 i) 50000#32 = 1#1 := by
  have h0 := congrFun h ix0
  unfold fn fn_part1 fn_part2 fn_part3 at h0
  dsimp only at h0
  have hall := (IntOp.andi_eq_one.1 h0).2
  have hi := Host.reduce_andi_all _ _ _ _ ix0 hall i
  exact IntOp.andi_eq_one.1 hi

end Cert.Pre_finite_inputs.IndexRange

end
-- ==== Proof.HostK.lean ====
/-
  What the kernel's program holds in its buffers at each region's entry and at the return, as terms of the arguments.

  Before the edge region the host part gathers the source and target rows of x (jnp.take at its default mode, from the
  two rows of the index array), forms the strain column sqrt(Σ r²) - d over d, cuts the message weights into their four
  row blocks and the node weights into two, and lays the three bias vectors out as rows. Between the regions it
  scatter-adds a column of ones and the messages by target node. Each buffer is read back through the operations that
  follow its definition (none of which writes it) to the operation that wrote it.
-/
import proofs.«415017_j47390669144219_3_alg».proof.Proof.Gen.KernelIdeal.Frame
import proofs.«415017_j47390669144219_3_alg».proof.Proof.IndexRange
import Idealize.ShloMosaic.Lib.StableHlo.Run

set_option maxRecDepth 16384

noncomputable section

namespace Cert.KernelIdeal.HostValues

open Idealize.ShloMosaic Idealize.ShloMosaic.TcCoe Idealize.SL.Sem Idealize.ShloMosaic.StableHlo
open Cert.KernelIdeal Cert.KernelIdeal.Gen Cert.KernelIdeal.NodeGather

variable {F : FTy → Type} [FloatOps F]

/-- Row 0 (sources) and row 1 (targets) of the [2, 800000] index array, as vectors. -/
def srcOf (a1 : IVec S2x800000 32) : IVec S800000 32 :=
  shapeCast S800000 (extractStridedSlice S1x800000 ![0, 0] a1 slices_S2x800000_S1x800000_0_0) shapeCasts_S1x800000_S800000
def dstOf (a1 : IVec S2x800000 32) : IVec S800000 32 :=
  shapeCast S800000 (extractStridedSlice S1x800000 ![1, 0] a1 slices_S2x800000_S1x800000_1_0) shapeCasts_S1x800000_S800000

/-- The strain column: (‖r‖ - d) / d, with ‖r‖ = sqrt of the row sum of squares. -/
def strainOf (a3 : FVec F S800000x2 .f32) (a4 : FVec F S800000x1 .f32) : FVec F S800000x1 .f32 :=
  Host.divf (subf (Host.sqrt (broadcastInDim S800000x1 ![0] bcast_S800000_S800000x1_0
    (Host.reduceAdd (mulf a3 a3) (constant S_ .f32 0x00000000#32) reducesTo_S800000x2_S800000_d1 h_S_))) a4) a4

/-- The per-node count of incoming edges: ones scatter-added by target. -/
def cntOf (a1 : IVec S2x800000 32) : FVec F S50000x1 .f32 :=
  Host.scatterAdd scatter_S50000x1_S800000x1_S800000x1_1_0_0_1
    (broadcastInDim S50000x1 ![] bcast_S_S50000x1 (constant S_ .f32 0x00000000#32))
    (broadcastInDim S800000x1 ![0] bcast_S800000_S800000x1_0 (dstOf a1))
    (broadcastInDim S800000x1 ![] bcast_S_S800000x1 (constant S_ .f32 0x3F800000#32))

/-- The per-node sum of incoming messages. -/
def aggOf (a1 : IVec S2x800000 32) (msg : FVec F S800000x64 .f32) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 (dstOf a1)) msg

variable (m : (ℓ : Loc nD τ sig) → Buf (Elt F) ℓ) (ρ : Dev nD → PrngReg)

/-- Reads a buffer at the edge region's entry back through the four host stretches before it. -/
macro "read_entry0" : tactic =>
  `(tactic| (dsimp only [W4, W3, W2, W1, hostOps0, hostOps0_1, hostOps0_2, hostOps0_3]; after_results_simp))

/-! ## At the edge region's entry -/

/-! Each stretch over ANY contents it starts from: what it writes, and what it leaves alone. -/

section Stretches
variable (W : Valuation τ sig (Elt F))

theorem src0 : StableHlo.after hostOps0 W (Proc.devRef .tc main_v1) = srcOf (W (Proc.devRef .tc main_arg1)) := by
  dsimp only [hostOps0]; after_results_simp <;> rfl
theorem dst0 : StableHlo.after hostOps0 W (Proc.devRef .tc main_v3) = dstOf (W (Proc.devRef .tc main_arg1)) := by
  dsimp only [hostOps0]; after_results_simp <;> rfl
theorem keep0_arg0 : StableHlo.after hostOps0 W (Proc.devRef .tc main_arg0) = W (Proc.devRef .tc main_arg0) := by
  dsimp only [hostOps0]; after_results_simp
theorem keep1_arg0 : StableHlo.after hostOps0_1 W (Proc.devRef .tc main_arg0) = W (Proc.devRef .tc main_arg0) := by
  dsimp only [hostOps0_1]; after_results_simp
theorem keep1_v3 : StableHlo.after hostOps0_1 W (Proc.devRef .tc main_v3) = W (Proc.devRef .tc main_v3) := by
  dsimp only [hostOps0_1]; after_results_simp
theorem keep2_v3 : StableHlo.after hostOps0_2 W (Proc.devRef .tc main_v3) = W (Proc.devRef .tc main_v3) := by
  dsimp only [hostOps0_2]; after_results_simp
theorem keep3_v3 : StableHlo.after hostOps0_3 W (Proc.devRef .tc main_v3) = W (Proc.devRef .tc main_v3) := by
  dsimp only [hostOps0_3]; after_results_simp
/-- Two opposite transports cancel, whatever the two equations. -/
theorem cast_cast_id {α β : Sort _} (h : α = β) (h' : β = α) (v : α) : cast h' (cast h v) = v := by subst h; rfl

/-- A typed reference to a literal buffer carries the buffer's own type: its transport is the identity. -/
theorem toBuf_v4 (v : FVec F S800000x64 .f32) :
    ((TRef.of (T := ⟨S800000x64, .f32⟩) main_v4).toBuf (Val := Elt F) v : FVec F S800000x64 .f32) = v := rfl
theorem toBuf_v5 (v : FVec F S800000x64 .f32) :
    ((TRef.of (T := ⟨S800000x64, .f32⟩) main_v5).toBuf (Val := Elt F) v : FVec F S800000x64 .f32) = v := rfl
theorem ofBuf_arg0 (v : FVec F S50000x64 .f32) : (TRef.of (T := ⟨S50000x64, .f32⟩) main_arg0).ofBuf (Val := Elt F) v = v := rfl
theorem ofBuf_v1 (v : IVec S800000 32) : (TRef.of (T := ⟨S800000, .i32⟩) main_v1).ofBuf (Val := Elt F) v = v := rfl
theorem ofBuf_v3 (v : IVec S800000 32) : (TRef.of (T := ⟨S800000, .i32⟩) main_v3).ofBuf (Val := Elt F) v = v := rfl

/-- The first jnp.take: its 23 operations composed, the transports inside cancelling pairwise. -/
theorem take_call0_raw : StableHlo.after hostOps0_1 W (Proc.devRef .tc main_v4)
    = (TRef.of (T := ⟨S800000x64, .f32⟩) main_v4).toBuf (rowsFilled
        ((TRef.of (T := ⟨S50000x64, .f32⟩) main_arg0).ofBuf (W (Proc.devRef .tc main_arg0)))
        ((TRef.of (T := ⟨S800000, .i32⟩) main_v1).ofBuf (W (Proc.devRef .tc main_v1)))) := by
  dsimp only [hostOps0_1]; after_results_simp
  simp only [cast_cast_id]
  unfold rowsFilled rowsClamped inRangeMask wrapCol
  rfl
theorem take_call0 : StableHlo.after hostOps0_1 W (Proc.devRef .tc main_v4)
    = rowsFilled (W (Proc.devRef .tc main_arg0)) (W (Proc.devRef .tc main_v1)) := by
  refine (take_call0_raw W).trans ((toBuf_v4 _).trans ?_)
  exact congrArg₂ rowsFilled (ofBuf_arg0 _) (ofBuf_v1 _)

/-- The second jnp.take, likewise. -/
theorem take_call1_raw : StableHlo.after hostOps0_2 W (Proc.devRef .tc main_v5)
    = (TRef.of (T := ⟨S800000x64, .f32⟩) main_v5).toBuf (rowsFilled
        ((TRef.of (T := ⟨S50000x64, .f32⟩) main_arg0).ofBuf (W (Proc.devRef .tc main_arg0)))
        ((TRef.of (T := ⟨S800000, .i32⟩) main_v3).ofBuf (W (Proc.devRef .tc main_v3)))) := by
  dsimp only [hostOps0_2]; after_results_simp
  simp only [cast_cast_id]
  unfold rowsFilled rowsClamped inRangeMask wrapCol
  rfl
theorem take_call1 : StableHlo.after hostOps0_2 W (Proc.devRef .tc main_v5)
    = rowsFilled (W (Proc.devRef .tc main_arg0)) (W (Proc.devRef .tc main_v3)) := by
  refine (take_call1_raw W).trans ((toBuf_v5 _).trans ?_)
  exact congrArg₂ rowsFilled (ofBuf_arg0 _) (ofBuf_v3 _)
theorem keep2_v4 : StableHlo.after hostOps0_2 W (Proc.devRef .tc main_v4) = W (Proc.devRef .tc main_v4) := by
  dsimp only [hostOps0_2]; after_results_simp
theorem keep3_v4 : StableHlo.after hostOps0_3 W (Proc.devRef .tc main_v4) = W (Proc.devRef .tc main_v4) := by
  dsimp only [hostOps0_3]; after_results_simp
theorem keep3_v5 : StableHlo.after hostOps0_3 W (Proc.devRef .tc main_v5) = W (Proc.devRef .tc main_v5) := by
  dsimp only [hostOps0_3]; after_results_simp

end Stretches

theorem e0_xj (c : Dev nD) : W4 m ρ c (Proc.devRef .tc main_v4) = rowsFilled (m ((c.tc : Thread nD τ).loc main_arg0)) (srcOf (m ((c.tc : Thread nD τ).loc main_arg1))) := by
  dsimp only [W4, W3, W2, W1]
  rw [keep3_v4, keep2_v4, take_call0, keep0_arg0, src0]
theorem e0_xi (c : Dev nD) : W4 m ρ c (Proc.devRef .tc main_v5) = rowsFilled (m ((c.tc : Thread nD τ).loc main_arg0)) (dstOf (m ((c.tc : Thread nD τ).loc main_arg1))) := by
  dsimp only [W4, W3, W2, W1]
  rw [keep3_v5, take_call1, keep1_arg0, keep0_arg0, keep1_v3, dst0]
theorem e0_dst (c : Dev nD) : W4 m ρ c (Proc.devRef .tc main_v3) = dstOf (m ((c.tc : Thread nD τ).loc main_arg1)) := by
  dsimp only [W4, W3, W2, W1]
  rw [keep3_v3, keep2_v3, keep1_v3, dst0]
theorem e0_ea (c : Dev nD) : W4 m ρ c (Proc.devRef .tc main_arg2) = m ((c.tc : Thread nD τ).loc main_arg2) := by
  read_entry0 <;> rfl
theorem e0_strain (c : Dev nD) : W4 m ρ c (Proc.devRef .tc main_v11) = strainOf (m ((c.tc : Thread nD τ).loc main_arg3)) (m ((c.tc : Thread nD τ).loc main_arg4)) := by
  read_entry0 <;> rfl
theorem e0_wj (c : Dev nD) : W4 m ρ c (Proc.devRef .tc main_v12) = extractStridedSlice S64x64 ![0, 0] (m ((c.tc : Thread nD τ).loc main_arg5)) slices_S193x64_S64x64_0_0 := by
  read_entry0 <;> rfl
theorem e0_wi (c : Dev nD) : W4 m ρ c (Proc.devRef .tc main_v13) = extractStridedSlice S64x64 ![64, 0] (m ((c.tc : Thread nD τ).loc main_arg5)) slices_S193x64_S64x64_64_0 := by
  read_entry0 <;> rfl
theorem e0_ws (c : Dev nD) : W4 m ρ c (Proc.devRef .tc main_v14) = extractStridedSlice S1x64 ![128, 0] (m ((c.tc : Thread nD τ).loc main_arg5)) slices_S193x64_S1x64_128_0 := by
  read_entry0 <;> rfl
theorem e0_we (c : Dev nD) : W4 m ρ c (Proc.devRef .tc main_v15) = extractStridedSlice S64x64 ![129, 0] (m ((c.tc : Thread nD τ).loc main_arg5)) slices_S193x64_S64x64_129_0 := by
  read_entry0 <;> rfl
theorem e0_bm (c : Dev nD) : W4 m ρ c (Proc.devRef .tc main_v16) = shapeCast S1x64 (m ((c.tc : Thread nD τ).loc main_arg6)) shapeCasts_S64_S1x64 := by
  read_entry0 <;> rfl
theorem e0_wd (c : Dev nD) : W4 m ρ c (Proc.devRef .tc main_arg9) = m ((c.tc : Thread nD τ).loc main_arg9) := by
  read_entry0 <;> rfl
theorem e0_bd (c : Dev nD) : W4 m ρ c (Proc.devRef .tc main_v17) = shapeCast S1x64 (m ((c.tc : Thread nD τ).loc main_arg10)) shapeCasts_S64_S1x64 := by
  read_entry0 <;> rfl

/-! ## Between the regions -/

section Stretch1
variable (W : Valuation τ sig (Elt F))

theorem cnt1 : StableHlo.after hostOps1 W (Proc.devRef .tc main_v25)
    = Host.scatterAdd scatter_S50000x1_S800000x1_S800000x1_1_0_0_1
        (broadcastInDim S50000x1 ![] bcast_S_S50000x1 (constant S_ .f32 0x00000000#32))
        (broadcastInDim S800000x1 ![0] bcast_S800000_S800000x1_0 (W (Proc.devRef .tc main_v3)))
        (broadcastInDim S800000x1 ![] bcast_S_S800000x1 (constant S_ .f32 0x3F800000#32)) := by
  dsimp only [hostOps1]; after_results_simp <;> rfl
theorem agg1 : StableHlo.after hostOps1 W (Proc.devRef .tc main_v28)
    = Host.scatterAdd scatter_S50000x64_S800000x1_S800000x64_1_0_0_1
        (broadcastInDim S50000x64 ![] bcast_S_S50000x64 (constant S_ .f32 0x00000000#32))
        (broadcastInDim S800000x1 ![0] bcast_S800000_S800000x1_0 (W (Proc.devRef .tc main_v3)))
        (W (Proc.devRef .tc main_v21_0)) := by
  dsimp only [hostOps1]; after_results_simp <;> rfl
theorem keep_h1_arg0 : StableHlo.after hostOps1 W (Proc.devRef .tc main_arg0) = W (Proc.devRef .tc main_arg0) := by
  dsimp only [hostOps1]; after_results_simp
theorem keep_h1_v19 : StableHlo.after hostOps1 W (Proc.devRef .tc main_v19) = W (Proc.devRef .tc main_v19) := by
  dsimp only [hostOps1]; after_results_simp
theorem keep_h1_v20 : StableHlo.after hostOps1 W (Proc.devRef .tc main_v20) = W (Proc.devRef .tc main_v20) := by
  dsimp only [hostOps1]; after_results_simp
theorem keep_h1_v18 : StableHlo.after hostOps1 W (Proc.devRef .tc main_v18) = W (Proc.devRef .tc main_v18) := by
  dsimp only [hostOps1]; after_results_simp
theorem keep_h1_v21_1 : StableHlo.after hostOps1 W (Proc.devRef .tc main_v21_1) = W (Proc.devRef .tc main_v21_1) := by
  dsimp only [hostOps1]; after_results_simp
theorem keep_h1_v21_0 : StableHlo.after hostOps1 W (Proc.devRef .tc main_v21_0) = W (Proc.devRef .tc main_v21_0) := by
  dsimp only [hostOps1]; after_results_simp
theorem keep_h1_v11 : StableHlo.after hostOps1 W (Proc.devRef .tc main_v11) = W (Proc.devRef .tc main_v11) := by
  dsimp only [hostOps1]; after_results_simp

end Stretch1

/-! ## At the node region's entry -/

theorem e1_x (c : Dev nD) : W6 m ρ c (Proc.devRef .tc main_arg0) = m ((c.tc : Thread nD τ).loc main_arg0) := by
  dsimp only [W6]; rw [keep_h1_arg0, W5_of_ne m ρ c main_arg0 (by decide)]
  read_entry0 <;> rfl
theorem e1_wx (c : Dev nD) : W6 m ρ c (Proc.devRef .tc main_v19) = extractStridedSlice S64x64 ![0, 0] (m ((c.tc : Thread nD τ).loc main_arg7)) slices_S128x64_S64x64_0_0 := by
  dsimp only [W6]; rw [keep_h1_v19, W5_of_ne m ρ c main_v19 (by decide)]
  read_entry0 <;> rfl
theorem e1_wa (c : Dev nD) : W6 m ρ c (Proc.devRef .tc main_v20) = extractStridedSlice S64x64 ![64, 0] (m ((c.tc : Thread nD τ).loc main_arg7)) slices_S128x64_S64x64_64_0 := by
  dsimp only [W6]; rw [keep_h1_v20, W5_of_ne m ρ c main_v20 (by decide)]
  read_entry0 <;> rfl
theorem e1_bu (c : Dev nD) : W6 m ρ c (Proc.devRef .tc main_v18) = shapeCast S1x64 (m ((c.tc : Thread nD τ).loc main_arg8)) shapeCasts_S64_S1x64 := by
  dsimp only [W6]; rw [keep_h1_v18, W5_of_ne m ρ c main_v18 (by decide)]
  read_entry0 <;> rfl
theorem e1_cnt (c : Dev nD) : W6 m ρ c (Proc.devRef .tc main_v25) = cntOf (m ((c.tc : Thread nD τ).loc main_arg1)) := by
  dsimp only [W6]; rw [cnt1, W5_of_ne m ρ c main_v3 (by decide), e0_dst]
  rfl
theorem e1_agg (c : Dev nD) : W6 m ρ c (Proc.devRef .tc main_v28) = aggOf (m ((c.tc : Thread nD τ).loc main_arg1)) ((dat0 (V4 m ρ) c).arrAt 11 cfg0.N) := by
  dsimp only [W6]; rw [agg1, W5_of_ne m ρ c main_v3 (by decide), e0_dst,
    show W5 m ρ c (Proc.devRef .tc main_v21_0) = (dat0 (V4 m ρ) c).arrAt 11 cfg0.N from W5_arr m ρ c 11]
  rfl

/-! ## At the return -/

theorem ret_node (c : Dev nD) : W7 m ρ c (Proc.devRef .tc main_v29) = (dat1 (V6 m ρ) c).arrAt 6 cfg1.N := W7_arr m ρ c 6
theorem ret_edge (c : Dev nD) : W7 m ρ c (Proc.devRef .tc main_v21_1) = (dat0 (V4 m ρ) c).arrAt 12 cfg0.N := by
  rw [W7_of_ne m ρ c main_v21_1 (by decide)]; dsimp only [W6]; rw [keep_h1_v21_1]
  exact W5_arr m ρ c 12
theorem ret_msg (c : Dev nD) : W7 m ρ c (Proc.devRef .tc main_v21_0) = (dat0 (V4 m ρ) c).arrAt 11 cfg0.N := by
  rw [W7_of_ne m ρ c main_v21_0 (by decide)]; dsimp only [W6]; rw [keep_h1_v21_0]
  exact W5_arr m ρ c 11
theorem ret_strain (c : Dev nD) : W7 m ρ c (Proc.devRef .tc main_v11) = strainOf (m ((c.tc : Thread nD τ).loc main_arg3)) (m ((c.tc : Thread nD τ).loc main_arg4)) := by
  rw [W7_of_ne m ρ c main_v11 (by decide)]; dsimp only [W6]; rw [keep_h1_v11]
  exact ((W5_arr m ρ c 3).trans (((dat0 (V4 m ρ) c).arrAt_in 3 rfl _).trans (A_eq0 (V4 m ρ) c 3))).trans (e0_strain m ρ c)

end Cert.KernelIdeal.HostValues

end
-- ==== Proof.KernelValue.lean ====
/-
  The kernel program's four results as functions of its argument arrays.

  With every index word in [-50000, 50000) the two row gathers are the plain clamped gathers; the edge region then
  leaves the messages and the updated edge features of Spec, built from those rows, the strain column, the edge
  features and the row blocks of the message and edge weights; the scatter-adds between the regions give the per-node
  sums and counts; and the node region leaves the node update of Spec.
-/
import proofs.«415017_j47390669144219_3_alg».proof.Proof.Region0
import proofs.«415017_j47390669144219_3_alg».proof.Proof.KernelRun
import proofs.«415017_j47390669144219_3_alg».proof.Proof.Region1
import proofs.«415017_j47390669144219_3_alg».proof.Proof.HostK
import proofs.«415017_j47390669144219_3_alg».proof.Proof.IndexRange
import proofs.«415017_j47390669144219_3_alg».proof.Proof.Spec

set_option maxRecDepth 16384

noncomputable section

namespace Cert.KernelIdeal.Results

open Idealize.ShloMosaic Idealize.ShloMosaic.TcCoe Idealize.ShloMosaic.ValueIdx Idealize.SL.Sem
open Cert.KernelIdeal Cert.KernelIdeal.Gen Cert.KernelIdeal.NodeGather Cert.KernelIdeal.HostValues Cert.MsgPass

/-- Every word of the index array lies in [-50000, 50000), as the two signed comparisons the precondition makes. -/
def InRange (a1 : IVec S2x800000 32) : Prop :=
  ∀ i, IntOp.cmpi .sge (a1 i) 4294917296#32 = 1#1 ∧ IntOp.cmpi .slt (a1 i) 50000#32 = 1#1

theorem srcOf_inRange {a1 : IVec S2x800000 32} (h : InRange a1) (i : S800000.Idx) :
    IntOp.cmpi .sge (srcOf a1 i) 4294917296#32 = 1#1 ∧ IntOp.cmpi .slt (srcOf a1 i) 50000#32 = 1#1 := by
  simp only [srcOf, shapeCast, extractStridedSlice]; exact h _
theorem dstOf_inRange {a1 : IVec S2x800000 32} (h : InRange a1) (i : S800000.Idx) :
    IntOp.cmpi .sge (dstOf a1 i) 4294917296#32 = 1#1 ∧ IntOp.cmpi .slt (dstOf a1 i) 50000#32 = 1#1 := by
  simp only [dstOf, shapeCast, extractStridedSlice]; exact h _

/-- The messages, the updated edge features and the updated node features as functions of the argument arrays. -/
def msgOf (a0 : FVec Ideal S50000x64 .f32) (a1 : IVec S2x800000 32) (a2 : FVec Ideal S800000x64 .f32) (a3 : FVec Ideal S800000x2 .f32)
    (a4 : FVec Ideal S800000x1 .f32) (a5 : FVec Ideal S193x64 .f32) (a6 : FVec Ideal S64 .f32) : Mat 800000 64 :=
  msgArr (rowsClamped (F := Ideal) a0 (srcOf a1)) (rowsClamped (F := Ideal) a0 (dstOf a1)) a2 (strainOf (F := Ideal) a3 a4)
    (rows64 a5 0 (by omega)) (rows64 a5 64 (by omega)) (rows64 a5 129 (by omega)) (row1 a5 128 (by omega)) (asRow a6)
def edgeOf (msg : Mat 800000 64) (a9 : FVec Ideal S64x64 .f32) (a10 : FVec Ideal S64 .f32) : Mat 800000 64 :=
  edgeArr msg a9 (asRow a10)
def nodeOf (a0 : FVec Ideal S50000x64 .f32) (a1 : IVec S2x800000 32) (msg : Mat 800000 64) (a7 : FVec Ideal S128x64 .f32)
    (a8 : FVec Ideal S64 .f32) : Mat 50000 64 :=
  nodeArr a0 (aggOf (F := Ideal) a1 msg) (cntOf (F := Ideal) a1) (rows64 a7 0 (by omega)) (rows64 a7 64 (by omega)) (asRow a8)

variable (m : (ℓ : Loc nD τ sig) → Buf (Elt Ideal) ℓ) (ρ : Dev nD → PrngReg)

/-- The messages. -/
theorem msg_at_entry1 (c : Dev nD) (h : InRange (m ((c.tc : Thread nD τ).loc main_arg1))) :
    (dat0 (V4 m ρ) c).arrAt 11 cfg0.N
      = msgOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  rw [EdgeRegion.msg_final (V4 m ρ) c]
  unfold msgOf
  have hxj : EdgeRegion.aXj (V4 m ρ) c = rowsClamped (F := Ideal) (m ((c.tc : Thread nD τ).loc main_arg0)) (srcOf (m ((c.tc : Thread nD τ).loc main_arg1))) := by
    have e : EdgeRegion.aXj (V4 m ρ) c = rowsFilled (F := Ideal) (m ((c.tc : Thread nD τ).loc main_arg0)) (srcOf (m ((c.tc : Thread nD τ).loc main_arg1))) := e0_xj m ρ c
    rw [e]; exact rowsFilled_eq _ _ (srcOf_inRange h)
  have hxi : EdgeRegion.aXi (V4 m ρ) c = rowsClamped (F := Ideal) (m ((c.tc : Thread nD τ).loc main_arg0)) (dstOf (m ((c.tc : Thread nD τ).loc main_arg1))) := by
    have e : EdgeRegion.aXi (V4 m ρ) c = rowsFilled (F := Ideal) (m ((c.tc : Thread nD τ).loc main_arg0)) (dstOf (m ((c.tc : Thread nD τ).loc main_arg1))) := e0_xi m ρ c
    rw [e]; exact rowsFilled_eq _ _ (dstOf_inRange h)
  have hea : EdgeRegion.aEa (V4 m ρ) c = m ((c.tc : Thread nD τ).loc main_arg2) := e0_ea m ρ c
  have hst : EdgeRegion.aSt (V4 m ρ) c = strainOf (F := Ideal) (m ((c.tc : Thread nD τ).loc main_arg3)) (m ((c.tc : Thread nD τ).loc main_arg4)) := e0_strain m ρ c
  have hwj : EdgeRegion.aWj (V4 m ρ) c = rows64 (m ((c.tc : Thread nD τ).loc main_arg5)) 0 (by omega) := (e0_wj m ρ c).trans (slice_rows64 _ _ _ _)
  have hwi : EdgeRegion.aWi (V4 m ρ) c = rows64 (m ((c.tc : Thread nD τ).loc main_arg5)) 64 (by omega) := (e0_wi m ρ c).trans (slice_rows64 _ _ _ _)
  have hwe : EdgeRegion.aWe (V4 m ρ) c = rows64 (m ((c.tc : Thread nD τ).loc main_arg5)) 129 (by omega) := (e0_we m ρ c).trans (slice_rows64 _ _ _ _)
  have hws : EdgeRegion.aWs (V4 m ρ) c = row1 (m ((c.tc : Thread nD τ).loc main_arg5)) 128 (by omega) := (e0_ws m ρ c).trans (slice_row1 _ _ _ _)
  have hbm : EdgeRegion.aBm (V4 m ρ) c = asRow (m ((c.tc : Thread nD τ).loc main_arg6)) := (e0_bm m ρ c).trans (cast_asRow _ _)
  rw [hxj, hxi, hea, hst, hwj, hwi, hwe, hws, hbm]

/-- The updated edge features. -/
theorem edge_at_ret (c : Dev nD) (h : InRange (m ((c.tc : Thread nD τ).loc main_arg1))) :
    (dat0 (V4 m ρ) c).arrAt 12 cfg0.N = edgeOf (msgOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg9)) (m ((c.tc : Thread nD τ).loc main_arg10)) := by
  rw [EdgeRegion.edge_final (V4 m ρ) c, ← EdgeRegion.msg_final (V4 m ρ) c, msg_at_entry1 m ρ c h]
  unfold edgeOf
  have hwd : EdgeRegion.aWd (V4 m ρ) c = (m ((c.tc : Thread nD τ).loc main_arg9)) := e0_wd m ρ c
  have hbd : EdgeRegion.aBd (V4 m ρ) c = asRow (m ((c.tc : Thread nD τ).loc main_arg10)) := (e0_bd m ρ c).trans (cast_asRow _ _)
  rw [hwd, hbd]

/-- The updated node features. -/
theorem node_at_ret (c : Dev nD) (h : InRange (m ((c.tc : Thread nD τ).loc main_arg1))) :
    (dat1 (V6 m ρ) c).arrAt 6 cfg1.N = nodeOf (m ((c.tc : Thread nD τ).loc main_arg0)) (m ((c.tc : Thread nD τ).loc main_arg1)) (msgOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) := by
  rw [NodeRegion.node_final (V6 m ρ) c]
  unfold nodeOf
  have hx : NodeRegion.aX (V6 m ρ) c = (m ((c.tc : Thread nD τ).loc main_arg0)) := e1_x m ρ c
  have hagg : NodeRegion.aAgg (V6 m ρ) c = aggOf (F := Ideal) (m ((c.tc : Thread nD τ).loc main_arg1)) (msgOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) :=
    (e1_agg m ρ c).trans (congrArg (aggOf (F := Ideal) (m ((c.tc : Thread nD τ).loc main_arg1))) (msg_at_entry1 m ρ c h))
  have hcnt : NodeRegion.aCnt (V6 m ρ) c = cntOf (F := Ideal) (m ((c.tc : Thread nD τ).loc main_arg1)) := e1_cnt m ρ c
  have hwx : NodeRegion.aWx (V6 m ρ) c = rows64 (m ((c.tc : Thread nD τ).loc main_arg7)) 0 (by omega) := (e1_wx m ρ c).trans (slice_rows64 _ _ _ _)
  have hwa : NodeRegion.aWa (V6 m ρ) c = rows64 (m ((c.tc : Thread nD τ).loc main_arg7)) 64 (by omega) := (e1_wa m ρ c).trans (slice_rows64 _ _ _ _)
  have hbu : NodeRegion.aBu (V6 m ρ) c = asRow (m ((c.tc : Thread nD τ).loc main_arg8)) := (e1_bu m ρ c).trans (cast_asRow _ _)
  rw [hx, hagg, hcnt, hwx, hwa, hbu]

/-- The kernel program's run with its four results named: every weakly fair execution terminates without a fault, the
    result buffers at the node update, the edge update, the messages and the strain column of the argument arrays,
    every argument array as launched. -/
theorem run_values (hR : ∀ c : Dev nD, InRange (m ((c.tc : Thread nD τ).loc main_arg1))) :
    θ_run (defs (F := Ideal)) (onTc (τ := τ) (main (F := Ideal))) ⟨m, fun _ => 0, ρ⟩ (fun r => ∀ c : Dev nD,
      r.2.mem ((c.tc : Thread nD τ).loc main_v29) = nodeOf (m ((c.tc : Thread nD τ).loc main_arg0)) (m ((c.tc : Thread nD τ).loc main_arg1)) (msgOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8))
      ∧ r.2.mem ((c.tc : Thread nD τ).loc main_v21_1) = edgeOf (msgOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg9)) (m ((c.tc : Thread nD τ).loc main_arg10))
      ∧ r.2.mem ((c.tc : Thread nD τ).loc main_v21_0) = (msgOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_v11) = strainOf (F := Ideal) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run (defs (F := Ideal)) _ _).mono (fun r hr c => ?_) (Cert.KernelIdeal.RunResults.run_results m ρ)
  obtain ⟨h1, h2, h3, h4, hargs⟩ := hr c
  refine ⟨?_, ?_, ?_, ?_, hargs⟩
  · rw [h1, ret_node, node_at_ret m ρ c (hR c)]
  · rw [h2, ret_edge, edge_at_ret m ρ c (hR c)]
  · rw [h3, ret_msg, msg_at_entry1 m ρ c (hR c)]
  · rw [h4, ret_strain]

end Cert.KernelIdeal.Results

end
-- ==== Proof.RefValue.lean ====
/-
  The reference program's three computed results, stage by stage, as the whole-array functions of Spec.

  The reference forms the 800000×193 feature matrix [x[src] | x[dst] | strain | edge_attr] and multiplies it by the
  193×64 message weights: entry (e, j) is a sum over 193 column indices, which splits into the stretches 0…63,
  64…127, 128 and 129…192, each read off one operand of the concatenation against the matching rows of the weights.
  That is the pre-activation of Spec with the weights' row blocks; softplus follows in the host's spelling. The node
  update is the same with the 128 = 64 + 64 columns of [x | agg / max(cnt, 1)], and the edge update is one plain product.
  The gathers, the strain column and the two scatter-adds are carried as the reference's own stages, unopened.
-/
import proofs.«415017_j47390669144219_3_alg».proof.Proof.Gen.ReferenceIdeal.Read
import proofs.«415017_j47390669144219_3_alg».proof.Proof.Spec
import Idealize.ShloMosaic.Lib.ValueIdx
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read Cert.MsgPass
open scoped BigOperators

/-! ## The operand indices of the three products, by coordinates -/

theorem lidx22 (e : Fin 800000) (j : Fin 64) (k : Fin 193) : lidx_main_v22 (ix2 e j) k = ix2 e k :=
  funext fun a => Fin.ext (by match a with | ⟨0, _⟩ => rfl | ⟨1, _⟩ => rfl)
theorem ridx22 (e : Fin 800000) (j : Fin 64) (k : Fin 193) : ridx_main_v22 (ix2 e j) k = ix2 k j :=
  funext fun a => Fin.ext (by match a with | ⟨0, _⟩ => rfl | ⟨1, _⟩ => rfl)
theorem lidx39 (n : Fin 50000) (j : Fin 64) (k : Fin 128) : lidx_main_v39 (ix2 n j) k = ix2 n k :=
  funext fun a => Fin.ext (by match a with | ⟨0, _⟩ => rfl | ⟨1, _⟩ => rfl)
theorem ridx39 (n : Fin 50000) (j : Fin 64) (k : Fin 128) : ridx_main_v39 (ix2 n j) k = ix2 k j :=
  funext fun a => Fin.ext (by match a with | ⟨0, _⟩ => rfl | ⟨1, _⟩ => rfl)
theorem lidx43 (e : Fin 800000) (j : Fin 64) (k : Fin 64) : lidx_main_v43 (ix2 e j) k = ix2 e k :=
  funext fun a => Fin.ext (by match a with | ⟨0, _⟩ => rfl | ⟨1, _⟩ => rfl)
theorem ridx43 (e : Fin 800000) (j : Fin 64) (k : Fin 64) : ridx_main_v43 (ix2 e j) k = ix2 k j :=
  funext fun a => Fin.ext (by match a with | ⟨0, _⟩ => rfl | ⟨1, _⟩ => rfl)
/-- A bias vector broadcast to a row and then over the rows is read at the column coordinate. -/
theorem bidx24 (e : Fin 800000) (j : Fin 64) : idx_main_v23 (idx_main_v24 (ix2 e j)) = ix1 j :=
  funext fun a => Fin.ext (by match a with | ⟨0, _⟩ => rfl)
theorem bidx41 (n : Fin 50000) (j : Fin 64) : idx_main_v40 (idx_main_v41 (ix2 n j)) = ix1 j :=
  funext fun a => Fin.ext (by match a with | ⟨0, _⟩ => rfl)
theorem bidx45 (e : Fin 800000) (j : Fin 64) : idx_main_v44 (idx_main_v45 (ix2 e j)) = ix1 j :=
  funext fun a => Fin.ext (by match a with | ⟨0, _⟩ => rfl)

/-! ## The message -/

/-- The pre-activation: the 193-term inner product by its four stretches, plus the broadcast bias. -/
theorem proj_ref (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x3 : (⟨S800000x2, .f32⟩ : BufTy).Contents (Elt Ideal)) (x4 : (⟨S800000x1, .f32⟩ : BufTy).Contents (Elt Ideal)) (x5 : (⟨S193x64, .f32⟩ : BufTy).Contents (Elt Ideal)) (x6 : (⟨S64, .f32⟩ : BufTy).Contents (Elt Ideal)) (e : Fin 800000) (j : Fin 64) :
    val_main_v25 (F := Ideal) x0 x1 x2 x3 x4 x5 x6 (ix2 e j)
      = projAt (val_main_v13 (F := Ideal) x0 x1) (val_main_v20 (F := Ideal) x0 x1) x2 (val_main_v6 (F := Ideal) x3 x4)
          (rows64 x5 0 (by omega)) (rows64 x5 64 (by omega)) (rows64 x5 129 (by omega)) (row1 x5 128 (by omega)) (asRow x6) e j := by
  rw [val_main_v25_apply, val_main_v22_apply, val_main_v24_apply, val_main_v23_apply, sum193_split]
  simp only [lidx22, ridx22]
  unfold val_main_v21
  rw [cat4_seg2]
  simp only [cat4_seg0, cat4_seg1, cat4_seg3, bidx24]
  generalize val_main_v13 (F := Ideal) x0 x1 = XJ
  generalize val_main_v20 (F := Ideal) x0 x1 = XI
  generalize val_main_v6 (F := Ideal) x3 x4 = ST
  simp only [projAt, rows64, row1, asRow, Nat.zero_add, Ideal.addf_def]

/-- The messages: softplus, in the host's spelling, of the pre-activation. -/
theorem msg_ref (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x3 : (⟨S800000x2, .f32⟩ : BufTy).Contents (Elt Ideal)) (x4 : (⟨S800000x1, .f32⟩ : BufTy).Contents (Elt Ideal)) (x5 : (⟨S193x64, .f32⟩ : BufTy).Contents (Elt Ideal)) (x6 : (⟨S64, .f32⟩ : BufTy).Contents (Elt Ideal)) :
    val_main_v26 (F := Ideal) x0 x1 x2 x3 x4 x5 x6
      = msgArr (val_main_v13 (F := Ideal) x0 x1) (val_main_v20 (F := Ideal) x0 x1) x2 (val_main_v6 (F := Ideal) x3 x4)
          (rows64 x5 0 (by omega)) (rows64 x5 64 (by omega)) (rows64 x5 129 (by omega)) (row1 x5 128 (by omega)) (asRow x6) := by
  funext i
  obtain ⟨e, j, rfl⟩ : ∃ (e : Fin 800000) (j : Fin 64), i = ix2 e j := ⟨i 0, i 1, eq_ix2 i⟩
  rw [val_main_v26_apply, val_main_call1_v4_apply, val_main_call1_v6_apply, val_main_call1_v11_apply, val_main_call1_v1_apply,
    val_main_call1_v10_apply, val_main_call1_v9_apply, val_main_call1_v8_apply, val_main_call1_v7_apply, val_main_call1_v3_apply,
    val_main_call1_v0_apply, val_main_call1_v2_apply, val_main_call1_v5_apply, val_main_call1_cst_apply, proj_ref]
  show _ = softplusAt (projAt (val_main_v13 (F := Ideal) x0 x1) (val_main_v20 (F := Ideal) x0 x1) x2 (val_main_v6 (F := Ideal) x3 x4)
    (rows64 x5 0 (by omega)) (rows64 x5 64 (by omega)) (rows64 x5 129 (by omega)) (row1 x5 128 (by omega)) (asRow x6) e j)
  generalize projAt (val_main_v13 (F := Ideal) x0 x1) (val_main_v20 (F := Ideal) x0 x1) x2 (val_main_v6 (F := Ideal) x3 x4)
    (rows64 x5 0 (by omega)) (rows64 x5 64 (by omega)) (rows64 x5 129 (by omega)) (row1 x5 128 (by omega)) (asRow x6) e j = p
  simp only [Ideal.cmpf_def, Ideal.subf_def, Ideal.addf_def, Ideal.maximumf_def, Ideal.hostUnary_log1p_def, Ideal.hostUnary_exp_def,
    Ideal.hostNegf_def, Ideal.hostAbsf_def, Ideal.negf_def, Ideal.absf_def, Ideal.ofBits_def, Ideal.ofBits_zero_f32]
  exact softplus_neg_form _

/-! ## The edge update -/

theorem edge_ref (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x3 : (⟨S800000x2, .f32⟩ : BufTy).Contents (Elt Ideal)) (x4 : (⟨S800000x1, .f32⟩ : BufTy).Contents (Elt Ideal)) (x5 : (⟨S193x64, .f32⟩ : BufTy).Contents (Elt Ideal)) (x6 : (⟨S64, .f32⟩ : BufTy).Contents (Elt Ideal)) (x9 : (⟨S64x64, .f32⟩ : BufTy).Contents (Elt Ideal)) (x10 : (⟨S64, .f32⟩ : BufTy).Contents (Elt Ideal)) :
    val_main_v46 (F := Ideal) x0 x1 x2 x3 x4 x5 x6 x9 x10 = edgeArr (val_main_v26 (F := Ideal) x0 x1 x2 x3 x4 x5 x6) x9 (asRow x10) := by
  funext i
  obtain ⟨e, j, rfl⟩ : ∃ (e : Fin 800000) (j : Fin 64), i = ix2 e j := ⟨i 0, i 1, eq_ix2 i⟩
  rw [val_main_v46_apply, val_main_v43_apply, val_main_v45_apply, val_main_v44_apply]
  generalize val_main_v26 (F := Ideal) x0 x1 x2 x3 x4 x5 x6 = MSG
  simp only [lidx43, ridx43, bidx45, Ideal.addf_def, edgeArr, edgeAt, asRow]

/-! ## The node update -/

theorem cidx36 (n : Fin 50000) (k : Fin 64) : idx_main_v36 (ix2 n k) = ix2 n (0 : Fin 1) :=
  funext fun a => Fin.ext (by match a with | ⟨0, _⟩ => rfl | ⟨1, _⟩ => rfl)

/-- The mean incoming message at node n, feature k: the summed messages over max(count, 1). -/
theorem mean_ref (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x3 : (⟨S800000x2, .f32⟩ : BufTy).Contents (Elt Ideal)) (x4 : (⟨S800000x1, .f32⟩ : BufTy).Contents (Elt Ideal)) (x5 : (⟨S193x64, .f32⟩ : BufTy).Contents (Elt Ideal)) (x6 : (⟨S64, .f32⟩ : BufTy).Contents (Elt Ideal)) (n : Fin 50000) (k : Fin 64) :
    val_main_v37 (F := Ideal) x0 x1 x2 x3 x4 x5 x6 (ix2 n k)
      = Ideal.div (val_main_v29 (F := Ideal) x0 x1 x2 x3 x4 x5 x6 (ix2 n k))
          (max (val_main_v33 (F := Ideal) x1 (ix2 n 0)) (Ideal.ofBits .f32 0x3F800000#32)) := by
  rw [val_main_v37_apply, val_main_v36_apply, val_main_v35_apply, val_main_v34_apply, val_main_cst_5_apply, cidx36]
  rfl

theorem node_ref (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x3 : (⟨S800000x2, .f32⟩ : BufTy).Contents (Elt Ideal)) (x4 : (⟨S800000x1, .f32⟩ : BufTy).Contents (Elt Ideal)) (x5 : (⟨S193x64, .f32⟩ : BufTy).Contents (Elt Ideal)) (x6 : (⟨S64, .f32⟩ : BufTy).Contents (Elt Ideal)) (x7 : (⟨S128x64, .f32⟩ : BufTy).Contents (Elt Ideal)) (x8 : (⟨S64, .f32⟩ : BufTy).Contents (Elt Ideal)) :
    val_main_v42 (F := Ideal) x0 x1 x2 x3 x4 x5 x6 x7 x8
      = nodeArr x0 (val_main_v29 (F := Ideal) x0 x1 x2 x3 x4 x5 x6) (val_main_v33 (F := Ideal) x1) (rows64 x7 0 (by omega)) (rows64 x7 64 (by omega)) (asRow x8) := by
  funext i
  obtain ⟨n, j, rfl⟩ : ∃ (n : Fin 50000) (j : Fin 64), i = ix2 n j := ⟨i 0, i 1, eq_ix2 i⟩
  rw [val_main_v42_apply, val_main_v39_apply, val_main_v41_apply, val_main_v40_apply, sum128_split]
  simp only [lidx39, ridx39, bidx41]
  unfold val_main_v38
  simp only [cat2_seg0, cat2_seg1, mean_ref]
  generalize val_main_v29 (F := Ideal) x0 x1 x2 x3 x4 x5 x6 = AGG
  generalize val_main_v33 (F := Ideal) x1 = CNT
  simp only [nodeArr, nodeAt, rows64, asRow, Nat.zero_add, Ideal.addf_def]

end Cert.ReferenceIdeal.RefValue

end
-- ==== Proof.Bridge.lean ====
/-
  The two programs meet: each of the reference's stages that is not arithmetic of Spec — the two row gathers, the
  strain column, the count and the sum by target node — is the same composition of the same operations as the
  kernel program's host part (each program names its own copy of the dimension records and side conditions; the copies
  have equal fields). With them identified, the reference's messages, updated edge features and updated node features
  are the kernel side's functions of the same argument arrays.
-/
import proofs.«415017_j47390669144219_3_alg».proof.Proof.KernelValue
import proofs.«415017_j47390669144219_3_alg».proof.Proof.RefValue
import proofs.«415017_j47390669144219_3_alg».proof.Proof.Gen.ReferenceIdeal.Run
import proofs.«415017_j47390669144219_3_alg».proof.Proof.Gen.ReferenceIdeal.Read

noncomputable section

namespace Cert.Bridge

open Idealize.ShloMosaic Idealize.ShloMosaic.ValueIdx
open Cert.MsgPass Cert.KernelIdeal.Results
open Cert.KernelIdeal.NodeGather (rowsClamped)
open Cert.KernelIdeal.HostValues (srcOf dstOf strainOf cntOf aggOf)
open Cert.ReferenceIdeal Cert.ReferenceIdeal.Read

variable (x0 : (⟨S50000x64, .f32⟩ : BufTy).Contents (Elt Ideal)) (x1 : (⟨S2x800000, .i32⟩ : BufTy).Contents (Elt Ideal)) (x2 : (⟨S800000x64, .f32⟩ : BufTy).Contents (Elt Ideal)) (x3 : (⟨S800000x2, .f32⟩ : BufTy).Contents (Elt Ideal)) (x4 : (⟨S800000x1, .f32⟩ : BufTy).Contents (Elt Ideal)) (x5 : (⟨S193x64, .f32⟩ : BufTy).Contents (Elt Ideal)) (x6 : (⟨S64, .f32⟩ : BufTy).Contents (Elt Ideal)) (x7 : (⟨S128x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal))

/-! ## The shared stages -/

theorem gather_src : val_main_v13 (F := Ideal) x0 x1 = rowsClamped (F := Ideal) x0 (srcOf x1) := rfl
theorem gather_dst : val_main_v20 (F := Ideal) x0 x1 = rowsClamped (F := Ideal) x0 (dstOf x1) := rfl
theorem strain_eq : val_main_v6 (F := Ideal) x3 x4 = strainOf (F := Ideal) x3 x4 := rfl
theorem cnt_eq : val_main_v33 (F := Ideal) x1 = cntOf (F := Ideal) x1 := rfl
theorem agg_eq : val_main_v29 (F := Ideal) x0 x1 x2 x3 x4 x5 x6 = aggOf (F := Ideal) x1 (val_main_v26 (F := Ideal) x0 x1 x2 x3 x4 x5 x6) := rfl

/-! ## The three results -/

theorem msg_eq : val_main_v26 (F := Ideal) x0 x1 x2 x3 x4 x5 x6 = msgOf x0 x1 x2 x3 x4 x5 x6 := by
  rw [Cert.ReferenceIdeal.RefValue.msg_ref, gather_src, gather_dst, strain_eq]
  rfl

theorem edge_eq : val_main_v46 (F := Ideal) x0 x1 x2 x3 x4 x5 x6 x9 x10 = edgeOf (msgOf x0 x1 x2 x3 x4 x5 x6) x9 x10 := by
  rw [Cert.ReferenceIdeal.RefValue.edge_ref, msg_eq]
  rfl

theorem node_eq : val_main_v42 (F := Ideal) x0 x1 x2 x3 x4 x5 x6 x7 x8 = nodeOf x0 x1 (msgOf x0 x1 x2 x3 x4 x5 x6) x7 x8 := by
  rw [Cert.ReferenceIdeal.RefValue.node_ref, agg_eq, cnt_eq, msg_eq]
  rfl

/-! ## The reference's run, with its results as the kernel side's functions -/

open Idealize.SL.Sem in
/-- The reference's generated run, its four results restated: the node update, the edge update, the messages and the
    strain column of its own argument arrays, as the same functions the kernel program's results are. -/
theorem ref_run_values (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
      r.2.mem ((c.tc : Thread Cert.ReferenceIdeal.nD Cert.ReferenceIdeal.τ).loc Cert.ReferenceIdeal.main_v42) = nodeOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (msgOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
      ∧ r.2.mem ((c.tc : Thread Cert.ReferenceIdeal.nD Cert.ReferenceIdeal.τ).loc Cert.ReferenceIdeal.main_v46) = edgeOf (msgOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
      ∧ r.2.mem ((c.tc : Thread Cert.ReferenceIdeal.nD Cert.ReferenceIdeal.τ).loc Cert.ReferenceIdeal.main_v26) = (msgOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)))
      ∧ r.2.mem ((c.tc : Thread Cert.ReferenceIdeal.nD Cert.ReferenceIdeal.τ).loc Cert.ReferenceIdeal.main_v6) = strainOf (F := Ideal) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)) := by
  refine (θ_run (Cert.ReferenceIdeal.defs (F := Ideal)) _ _).mono (fun r hr c => ?_) (Cert.ReferenceIdeal.Value.run (F := Ideal) m' ρ')
  obtain ⟨h1, h2, h3, h4, hargs⟩ := hr c
  refine ⟨?_, ?_, ?_, ?_, hargs⟩
  · rw [h1, val_main_v42_eq]; exact node_eq _ _ _ _ _ _ _ _ _
  · rw [h2, val_main_v46_eq]; exact edge_eq _ _ _ _ _ _ _ _ _
  · rw [h3, val_main_v26_eq]; exact msg_eq _ _ _ _ _ _ _
  · rw [h4]; exact (val_main_v6_eq _ _).trans (strain_eq _ _)

end Cert.Bridge

end
-- ==== Proof.lean ====
/-
  One step of mean-aggregating message passing on a graph of 50000 nodes and 800000 edges (feature width 64): the kernel
  program against its jnp reference, over the extended reals, for finite float inputs and index words in [-50000, 50000).

  Both programs gather the source and target rows of x, form the strain (|r| - d) / d, and compute
      msg = softplus([x_src | x_dst | strain | edge_attr] · W_msg + b_msg),   edge_new = msg · W_edge + b_edge,
      x_new = [x | (Σ_{e → n} msg) / max(#{e → n}, 1)] · W_upd + b_upd.
  The kernel program splits each inner product by the segments of the concatenation (64 + 64 + 1 + 64 and 64 + 64
  columns) and runs the dense arithmetic in two grid kernels over row blocks; addition of extended reals is a
  commutative monoid, so the regrouping changes nothing, and no finiteness is needed for it. The kernel's gathers are
  jnp.take at its default mode, which replaces rows whose (wrapped) index is out of range by a NaN constant where the
  reference's x[idx] clamps: with the index words in range the two agree, and that is the only use of the precondition.
  The frames are the generated ones; the reference's frame is its generated run with the results dropped.
-/
import proofs.«415017_j47390669144219_3_alg».proof.Defs
import proofs.«415017_j47390669144219_3_alg».proof.Proof.Gen.Kernel
import proofs.«415017_j47390669144219_3_alg».proof.Proof.Gen.Kernel.Skeleton
import proofs.«415017_j47390669144219_3_alg».proof.Proof.Gen.Kernel.Launch
import proofs.«415017_j47390669144219_3_alg».proof.Proof.Gen.Kernel.Points
import proofs.«415017_j47390669144219_3_alg».proof.Proof.Gen.Kernel.Frame
import proofs.«415017_j47390669144219_3_alg».proof.Proof.Gen.KernelIdeal
import proofs.«415017_j47390669144219_3_alg».proof.Proof.Gen.KernelIdeal.Skeleton
import proofs.«415017_j47390669144219_3_alg».proof.Proof.Gen.KernelIdeal.Launch
import proofs.«415017_j47390669144219_3_alg».proof.Proof.Gen.KernelIdeal.Points
import proofs.«415017_j47390669144219_3_alg».proof.Proof.Gen.KernelIdeal.Frame
import proofs.«415017_j47390669144219_3_alg».proof.Proof.Gen.ReferenceIdeal
import proofs.«415017_j47390669144219_3_alg».proof.Proof.Gen.Pre_finite_inputs
import proofs.«415017_j47390669144219_3_alg».proof.Proof.Gen.ReferenceIdeal.Run
import proofs.«415017_j47390669144219_3_alg».proof.Proof.Gen.ReferenceIdeal.Read
import proofs.«415017_j47390669144219_3_alg».proof.Proof.KernelRun
import proofs.«415017_j47390669144219_3_alg».proof.Proof.KernelValue
import proofs.«415017_j47390669144219_3_alg».proof.Proof.RefValue
import proofs.«415017_j47390669144219_3_alg».proof.Proof.Bridge
import proofs.«415017_j47390669144219_3_alg».proof.Proof.IndexRange
import Idealize.ShloMosaic.Adequacy
import Idealize.ShloMosaic.Init

set_option maxRecDepth 16384

noncomputable section

namespace Cert.Proof

open Idealize.ShloMosaic Idealize.SL.Sem
open Cert.KernelIdeal.Results Cert.KernelIdeal.HostValues

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- Both programs end with the same four result arrays: the node update, the edge update, the messages and the strain
    column of the kernel side's argument arrays. -/
theorem algebraic : Cert.algebraic_KernelIdeal_ReferenceIdeal := by
  intro m ρ m' ρ' hpre hagree
  have hR : ∀ c : Dev Cert.KernelIdeal.nD, InRange (m ((c.tc : Thread Cert.KernelIdeal.nD Cert.KernelIdeal.τ).loc Cert.KernelIdeal.main_arg1)) :=
    fun c i => Cert.Pre_finite_inputs.IndexRange.words_in_range _ _ _ _ _ _ _ _ _ _ _ (hpre c) i
  refine ⟨fun c => nodeOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (msgOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => edgeOf (msgOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => (msgOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))),
    fun c => strainOf (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact run_values m ρ hR
  · refine (θ_run (Cert.ReferenceIdeal.defs (F := Ideal)) _ _).mono (fun r hr c => ?_) (Cert.Bridge.ref_run_values m' ρ')
    obtain ⟨h0, h1, h2, h3, h4, h5, h6, h7, h8, h9, h10⟩ := hagree c
    obtain ⟨e1, e2, e3, e4, eargs⟩ := hr c
    refine ⟨?_, ?_, ?_, ?_, eargs⟩
    · rw [e1, h0, h1, h2, h3, h4, h5, h6, h7, h8]
    · rw [e2, h0, h1, h2, h3, h4, h5, h6, h9, h10]
    · rw [e3, h0, h1, h2, h3, h4, h5, h6]
    · rw [e4, h3, h4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
